-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x128 : Shape := ⟨2, ![64, 128]⟩
abbrev S64 : Shape := ⟨1, ![64]⟩
abbrev S_ : Shape := ⟨0, ![]⟩
abbrev S1x800000 : Shape := ⟨2, ![1, 800000]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  slices_S2x800000_S1x800000_0_0 : S2x800000.Slices ![0, 0] S1x800000
  bcast_S_S1x800000 : S_.BroadcastsInDim S1x800000 (![] : Fin 0 → Fin S1x800000.rank)
  reducesTo_S1x800000_S_d0_1 : S1x800000.ReducesTo [0, 1] S_

variable [Facts]

def fn_part1 {F : FTy → Type} [FloatOps F] (main_arg1 : IVec S2x800000 32) (main_v13 : IVec S_ 1) (main_v16 : IVec S1x800000 1) : IVec S_ 1 :=
  let main_v17 : IVec S1x800000 32 := (extractStridedSlice S1x800000 ![0, 0] · slices_S2x800000_S1x800000_0_0) main_arg1
  let main_c_5 : IVec S_ 32 := constantI S_ 32 50000#32
  let main_v18 : IVec S1x800000 32 := broadcastInDim S1x800000 ![] bcast_S_S1x800000 main_c_5
  let main_v19 : IVec S1x800000 1 := cmpi .slt main_v17 main_v18
  let main_v20 : IVec S1x800000 1 := andi main_v16 main_v19
  let main_c_6 : IVec S_ 1 := constantI S_ 1 1#1
  let main_v21 : IVec S_ 1 := (fun x v => Host.reduce IntOp.andi x v reducesTo_S1x800000_S_d0_1 h_S_) main_v20 main_c_6
  let main_v22 : IVec S_ 1 := andi main_v13 main_v21
  main_v22

def fn {F : FTy → Type} [FloatOps F] (main_arg0 : FVec F S50000x64 .f32) (main_arg1 : IVec S2x800000 32) (main_arg2 : FVec F S64x128 .f32) (main_arg3 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : IVec S1x800000 32 := (extractStridedSlice S1x800000 ![0, 0] · slices_S2x800000_S1x800000_0_0) main_arg1
  let main_c_4 : IVec S_ 32 := constantI S_ 32 4294917296#32
  let main_v15 : IVec S1x800000 32 := broadcastInDim S1x800000 ![] bcast_S_S1x800000 main_c_4
  let main_v16 : IVec S1x800000 1 := cmpi .sge main_v14 main_v15
  fn_part1 (F := F) main_arg1 main_v13 main_v16
-- ==== Kernel.lean ====
abbrev S50000x64 : Shape := ⟨2, ![50000, 64]⟩
abbrev S2x800000 : Shape := ⟨2, ![2, 800000]⟩
abbrev S64x128 : Shape := ⟨2, ![64, 128]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x64 : Shape := ⟨2, ![800000, 64]⟩
abbrev S50000 : Shape := ⟨1, ![50000]⟩
abbrev S64x64 : Shape := ⟨2, ![64, 64]⟩
abbrev S50000x1 : Shape := ⟨2, ![50000, 1]⟩
abbrev S1x64 : Shape := ⟨2, ![1, 64]⟩
abbrev S5000x64 : Shape := ⟨2, ![5000, 64]⟩

abbrev nBuf : Space → Nat
  | .hbm => 65
  | .vmem => 10
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x128, .f32⟩
  | .hbm, ⟨3, _⟩ => ⟨S64, .f32⟩
  | .hbm, ⟨4, _⟩ => ⟨S1x800000, .i32⟩
  | .hbm, ⟨5, _⟩ => ⟨S800000, .i32⟩
  | .hbm, ⟨6, _⟩ => ⟨S1x800000, .i32⟩
  | .hbm, ⟨7, _⟩ => ⟨S800000, .i32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S1, .i32⟩
  | .hbm, ⟨17, _⟩ => ⟨S_, .i32⟩
  | .hbm, ⟨18, _⟩ => ⟨S800000x1, .i32⟩
  | .hbm, ⟨19, _⟩ => ⟨S800000x1, .i1⟩
  | .hbm, ⟨20, _⟩ => ⟨S1x1, .i32⟩
  | .hbm, ⟨21, _⟩ => ⟨S800000x1, .i32⟩
  | .hbm, ⟨22, _⟩ => ⟨S800000x1, .i1⟩
  | .hbm, ⟨23, _⟩ => ⟨S800000x1, .i1⟩
  | .hbm, ⟨24, _⟩ => ⟨S_, .i1⟩
  | .hbm, ⟨25, _⟩ => ⟨S800000, .i1⟩
  | .hbm, ⟨26, _⟩ => ⟨S800000x64, .f32⟩
  | .hbm, ⟨27, _⟩ => ⟨S800000x64, .i1⟩
  | .hbm, ⟨28, _⟩ => ⟨S_, .f32⟩
  | .hbm, ⟨29, _⟩ => ⟨S800000x64, .f32⟩
  | .hbm, ⟨30, _⟩ => ⟨S800000x64, .f32⟩
  | .hbm, ⟨31, _⟩ => ⟨S_, .f32⟩
  | .hbm, ⟨32, _⟩ => ⟨S50000x64, .f32⟩
  | .hbm, ⟨33, _⟩ => ⟨S800000x1, .i32⟩
  | .hbm, ⟨34, _⟩ => ⟨S50000x64, .f32⟩
  | .hbm, ⟨35, _⟩ => ⟨S_, .f32⟩
  | .hbm, ⟨36, _⟩ => ⟨S800000, .f32⟩
  | .hbm, ⟨37, _⟩ => ⟨S_, .f32⟩
  | .hbm, ⟨38, _⟩ => ⟨S50000, .f32⟩
  | .hbm, ⟨39, _⟩ => ⟨S800000x1, .i32⟩
  | .hbm, ⟨40, _⟩ => ⟨S50000, .f32⟩
  | .hbm, ⟨41, _⟩ => ⟨S64x64, .f32⟩
  | .hbm, ⟨42, _⟩ => ⟨S64x64, .f32⟩
  | .hbm, ⟨43, _⟩ => ⟨S64x64, .f32⟩
  | .hbm, ⟨44, _⟩ => ⟨S64x64, .f32⟩
  | .hbm, ⟨45, _⟩ => ⟨S64x64, .bf16⟩
  | .hbm, ⟨46, _⟩ => ⟨S64x64, .f32⟩
  | .hbm, ⟨47, _⟩ => ⟨S64x64, .bf16⟩
  | .hbm, ⟨48, _⟩ => ⟨S50000x1, .f32⟩
  | .hbm, ⟨49, _⟩ => ⟨S50000x64, .f32⟩
  | .hbm, ⟨50, _⟩ => ⟨S50000x64, .f32⟩
  | .hbm, ⟨51, _⟩ => ⟨S50000x1, .f32⟩
  | .hbm, ⟨52, _⟩ => ⟨S1x64, .f32⟩
  | .hbm, ⟨53, _⟩ => ⟨S50000x64, .f32⟩
  | .hbm, ⟨54, _⟩ => ⟨S50000x64, .f32⟩
  | .hbm, ⟨55, _⟩ => ⟨S50000x64, .f32⟩
  | .hbm, ⟨56, _⟩ => ⟨S50000x64, .bf16⟩
  | .hbm, ⟨57, _⟩ => ⟨S50000x64, .bf16⟩
  | .hbm, ⟨58, _⟩ => ⟨S50000x64, .f32⟩
  | .hbm, ⟨59, _⟩ => ⟨S_, .f32⟩
  | .hbm, ⟨60, _⟩ => ⟨S50000, .f32⟩
  | .hbm, ⟨61, _⟩ => ⟨S50000, .f32⟩
  | .hbm, ⟨62, _⟩ => ⟨S50000x1, .f32⟩
  | .hbm, ⟨63, _⟩ => ⟨S50000x64, .f32⟩
  | .hbm, ⟨64, _⟩ => ⟨S50000x64, .f32⟩
  | .local _ .vmem, ⟨0, _⟩ => ⟨S5000x64, .bf16⟩
  | .local _ .vmem, ⟨1, _⟩ => ⟨S5000x64, .bf16⟩
  | .local _ .vmem, ⟨2, _⟩ => ⟨S5000x64, .bf16⟩
  | .local _ .vmem, ⟨3, _⟩ => ⟨S5000x64, .bf16⟩
  | .local _ .vmem, ⟨4, _⟩ => ⟨S5000x64, .f32⟩
  | .local _ .vmem, ⟨5, _⟩ => ⟨S5000x64, .f32⟩
  | .local _ .vmem, ⟨6, _⟩ => ⟨S64x64, .bf16⟩
  | .local _ .vmem, ⟨7, _⟩ => ⟨S64x64, .bf16⟩
  | .local _ .vmem, ⟨8, _⟩ => ⟨S5000x64, .f32⟩
  | .local _ .vmem, ⟨9, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v4 : Ref sig .tc := ⟨.hbm, 30, rfl⟩
abbrev main_cst : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_cst_0 : Ref sig .tc := ⟨.hbm, 35, rfl⟩
abbrev main_v8 : Ref sig .tc := ⟨.hbm, 36, rfl⟩
abbrev main_cst_1 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_cst_2 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x64_0 : S800000.BroadcastsInDim S800000x64 (![0] : Fin 1 → Fin S800000x64.rank)
  bcast_S_S800000x64 : S_.BroadcastsInDim S800000x64 (![] : Fin 0 → Fin S800000x64.rank)
  bcast_S_S50000x64 : S_.BroadcastsInDim S50000x64 (![] : Fin 0 → Fin S50000x64.rank)
  bcast_S_S50000 : S_.BroadcastsInDim S50000 (![] : Fin 0 → Fin S50000.rank)
  slices_S64x128_S64x64_0_0 : S64x128.Slices ![0, 0] S64x64
  slices_S64x128_S64x64_0_64 : S64x128.Slices ![0, 64] S64x64
  transposes_S64x64_S64x64_1_0 : S64x64.Transposes [1, 0] S64x64
  bitsLt_bf16_f32 : FTy.bits .bf16 < FTy.bits .f32
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .bf16 = 32 ∨ (Rect.block (s := S50000x64) S5000x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .bf16 = 32 ∨ (Rect.block (s := S50000x64) S5000x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .bf16 = 32 ∨ (Rect.block (s := S64x64) S64x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .bf16 = 32 ∨ (Rect.block (s := S64x64) S64x64.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S50000x64.size a
  hwx0_5 : ∀ i : grid0.Coords, EltTy.bits .f32 = 32 ∨ (Rect.block (s := S50000x64) S5000x64.size (cc0_transform_5 i) (hinb0_5 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v27) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v26) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v29) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x128 : Shape := ⟨2, ![64, 128]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S800000x128 : Shape := ⟨2, ![800000, 128]⟩
abbrev S128x64 : Shape := ⟨2, ![128, 64]⟩
abbrev S1x64 : Shape := ⟨2, ![1, 64]⟩
abbrev S50000 : Shape := ⟨1, ![50000]⟩
abbrev S50000x1 : Shape := ⟨2, ![50000, 1]⟩

abbrev nBuf : Space → Nat
  | .hbm => 49
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x128, .f32⟩
  | .hbm, ⟨3, _⟩ => ⟨S64, .f32⟩
  | .hbm, ⟨4, _⟩ => ⟨S1x800000, .i32⟩
  | .hbm, ⟨5, _⟩ => ⟨S800000, .i32⟩
  | .hbm, ⟨6, _⟩ => ⟨S1x800000, .i32⟩
  | .hbm, ⟨7, _⟩ => ⟨S800000, .i32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x64, .f32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x64, .f32⟩
  | .hbm, ⟨26, _⟩ => ⟨S800000x64, .f32⟩
  | .hbm, ⟨27, _⟩ => ⟨S800000x128, .f32⟩
  | .hbm, ⟨28, _⟩ => ⟨S128x64, .f32⟩
  | .hbm, ⟨29, _⟩ => ⟨S800000x64, .f32⟩
  | .hbm, ⟨30, _⟩ => ⟨S1x64, .f32⟩
  | .hbm, ⟨31, _⟩ => ⟨S800000x64, .f32⟩
  | .hbm, ⟨32, _⟩ => ⟨S800000x64, .f32⟩
  | .hbm, ⟨33, _⟩ => ⟨S_, .f32⟩
  | .hbm, ⟨34, _⟩ => ⟨S50000x64, .f32⟩
  | .hbm, ⟨35, _⟩ => ⟨S800000x1, .i32⟩
  | .hbm, ⟨36, _⟩ => ⟨S50000x64, .f32⟩
  | .hbm, ⟨37, _⟩ => ⟨S_, .f32⟩
  | .hbm, ⟨38, _⟩ => ⟨S800000, .f32⟩
  | .hbm, ⟨39, _⟩ => ⟨S_, .f32⟩
  | .hbm, ⟨40, _⟩ => ⟨S50000, .f32⟩
  | .hbm, ⟨41, _⟩ => ⟨S800000x1, .i32⟩
  | .hbm, ⟨42, _⟩ => ⟨S50000, .f32⟩
  | .hbm, ⟨43, _⟩ => ⟨S_, .f32⟩
  | .hbm, ⟨44, _⟩ => ⟨S50000, .f32⟩
  | .hbm, ⟨45, _⟩ => ⟨S50000, .f32⟩
  | .hbm, ⟨46, _⟩ => ⟨S50000x1, .f32⟩
  | .hbm, ⟨47, _⟩ => ⟨S50000x64, .f32⟩
  | .hbm, ⟨48, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x128_d1 : Shape.Concatenates [S800000x64, S800000x64] S800000x128 1
  transposes_S64x128_S128x64_1_0 : S64x128.Transposes [1, 0] S128x64
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  gather_S50000x64_S800000x1_S800000x64_1_0_n_n_0_1_164_wf : GatherDims.WF S50000x64 S800000x1 S800000x64 [1] [0] [] [0] [] 1 ![1, 64]
  dot_S800000x128_S128x64_S800000x64_1_0_0_1_n_n_wf : DotDims.WF S800000x128 S128x64 S800000x64 [1] [0] [0] [1] [] []
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x128_S128x64_S800000x64_1_0_0_1_n_n : DotDims S800000x128 S128x64 S800000x64 where
  lhsContracting := [1]
  rhsContracting := [0]
  lhsNonContracting := [0]
  rhsNonContracting := [1]
  lhsBatch := []
  rhsBatch := []
  wf := dot_S800000x128_S128x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf

class Facts : Prop extends Facts₀ where

variable [Facts]
-- ==== Proof.KerDefs.lean ====
/-
  The arrays the kernel region finds, named as functions of the program's four arguments.

  Before the kernel is launched the host computes, from the node features x, the edge words ei, the weights W and the
  bias b: the number of incoming edges per node; the source rows looked up edge by edge (a row where the normalised
  source word is a row, a fill value elsewhere) and summed per destination node; the features scaled by the count; the
  bias scaled by the count; and the two transposed 64 × 64 halves of the weights, the first with the second subtracted.
  Each is a definition here, generic in the float family, spelt operation by operation as the program computes it.
-/
import proofs.«431435_j60859686584363_3_alg».proof.KernelIdeal
import proofs.«431435_j60859686584363_3_alg».proof.Proof.Gen.KernelIdeal

noncomputable section

namespace Cert.KernelIdeal.Hand

open Idealize.ShloMosaic Cert.KernelIdeal Cert.KernelIdeal.Gen

variable {F : FTy → Type} [FloatOps F]

/-- The source words and the destination words of the edges, as vectors. -/
def srcVec (ei : IVec S2x800000 32) : IVec S800000 32 :=
  shapeCast _ (extractStridedSlice S1x800000 ![0, 0] ei slices_S2x800000_S1x800000_0_0) shapeCasts_S1x800000_S800000
def dstVec (ei : IVec S2x800000 32) : IVec S800000 32 :=
  shapeCast _ (extractStridedSlice S1x800000 ![1, 0] ei slices_S2x800000_S1x800000_1_0) shapeCasts_S1x800000_S800000

/-- A vector of words as a column of start words. -/
def colOf (s : IVec S800000 32) : IVec S800000x1 32 := broadcastInDim S800000x1 ![0] bcast_S800000_S800000x1_0 s

/-- Index normalisation of a vector of words: a negative word counts from the end of the 50000 rows. -/
def wrapVec (s : IVec S800000 32) : IVec S800000 32 :=
  select (cmpi .slt s (broadcastInDim S800000 ![] bcast_S_S800000 (constantI S_ 32 0#32)))
    (addi s (broadcastInDim S800000 ![] bcast_S_S800000 (constantI S_ 32 50000#32))) s

/-- Per edge, whether its start word lies in the rows 0 … 49999. -/
def inRows (col : IVec S800000x1 32) : IVec S800000 1 :=
  Host.reduce IntOp.andi
    (andi (cmpi .sge col (broadcastInDim S800000x1 ![] bcast_S_S800000x1 (constantI S_ 32 0#32)))
      (cmpi .sle col (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

/-- The rows of x looked up at the words s, edge by edge: the row where the normalised word is a row, a fill value
    elsewhere. -/
def takeOf (x : FVec F S50000x64 .f32) (s : IVec S800000 32) : FVec F S800000x64 .f32 :=
  select (broadcastInDim S800000x64 ![0] bcast_S800000_S800000x64_0 (inRows (colOf (wrapVec s))))
    (Host.gather gather_S50000x64_S800000x1_S800000x64_1_0_n_n_0_1_164 x (colOf (wrapVec s)))
    (broadcastInDim S800000x64 ![] bcast_S_S800000x64 (constant S_ .f32 0x7FC00000#32))

/-- Edge rows u summed per destination node, the destination words d. -/
def sumOf (d : IVec S800000 32) (u : FVec F S800000x64 .f32) : FVec F S50000x64 .f32 :=
  Host.scatterAdd scatter_S50000x64_S800000x1_S800000x64_1_0_0_1
    (broadcastInDim S50000x64 ![] bcast_S_S50000x64 (constant S_ .f32 0x00000000#32)) (colOf d) u

/-- The number of incoming edges per node, the destination words d. -/
def cntOf (d : IVec S800000 32) : FVec F S50000 .f32 :=
  Host.scatterAdd scatter_S50000_S800000x1_S800000_n_0_0_1
    (broadcastInDim S50000 ![] bcast_S_S50000 (constant S_ .f32 0x00000000#32)) (colOf d)
    (broadcastInDim S800000 ![] bcast_S_S800000 (constant S_ .f32 0x3F800000#32))

/-- A per-node vector spread over the 64 features. -/
def overFeatures (v : FVec F S50000 .f32) : FVec F S50000x64 .f32 :=
  broadcastInDim S50000x64 ![0, 1] bcast_S50000x1_S50000x64_0_1 (broadcastInDim S50000x1 ![0] bcast_S50000_S50000x1_0 v)

/-- The features scaled by the count; the source rows summed per destination; the bias scaled by the count. -/
def xcV (x : FVec F S50000x64 .f32) (ei : IVec S2x800000 32) : FVec F S50000x64 .bf16 :=
  truncf .bf16 (mulf (overFeatures (cntOf (dstVec ei))) x) bitsLt_bf16_f32
def sV (x : FVec F S50000x64 .f32) (ei : IVec S2x800000 32) : FVec F S50000x64 .bf16 :=
  truncf .bf16 (sumOf (dstVec ei) (takeOf x (srcVec ei))) bitsLt_bf16_f32
def biasV (ei : IVec S2x800000 32) (b : FVec F S64 .f32) : FVec F S50000x64 .f32 :=
  mulf (overFeatures (cntOf (dstVec ei)))
    (broadcastInDim S50000x64 ![0, 1] bcast_S1x64_S50000x64_0_1 (broadcastInDim S1x64 ![1] bcast_S64_S1x64_1 b))

/-- The two weight factors: (W₁ − W₂)ᵀ and W₂ᵀ for W = [W₁ | W₂]. -/
def aV (W : FVec F S64x128 .f32) : FVec F S64x64 .bf16 :=
  truncf .bf16 (transpose S64x64 [1, 0] (subf (extractStridedSlice S64x64 ![0, 0] W slices_S64x128_S64x64_0_0)
    (extractStridedSlice S64x64 ![0, 64] W slices_S64x128_S64x64_0_64)) transposes_S64x64_S64x64_1_0) bitsLt_bf16_f32
def bV (W : FVec F S64x128 .f32) : FVec F S64x64 .bf16 :=
  truncf .bf16 (transpose S64x64 [1, 0] (extractStridedSlice S64x64 ![0, 64] W slices_S64x128_S64x64_0_64)
    transposes_S64x64_S64x64_1_0) bitsLt_bf16_f32

/-- The divisor of the mean: the larger of the count and 1, spread over the features. -/
def divisorV (ei : IVec S2x800000 32) : FVec F S50000x64 .f32 :=
  overFeatures (maximumf (cntOf (dstVec ei)) (broadcastInDim S50000 ![] bcast_S_S50000 (constant S_ .f32 0x3F800000#32)))

end Cert.KernelIdeal.Hand

end
-- ==== Proof.KerHost.lean ====
/-
  The contents of the buffers at the kernel region's entry are the named terms of the four arguments.

  The host program before the region is three stretches: the two rows of the edge words cut out and reshaped; the row
  lookup with its index normalisation, range test and fill; and the aggregation, the count, the scalings and the two
  weight factors. The buffer contents after a list of operations is the contents after its last stretch of the
  contents after the earlier ones, so each stretch is read separately over an arbitrary valuation before it, and the
  three readings are then composed.
-/
import proofs.«431435_j60859686584363_3_alg».proof.Proof.Gen.KernelIdeal.Frame
import proofs.«431435_j60859686584363_3_alg».proof.Proof.KerDefs
import Idealize.ShloMosaic.Lib.StableHlo.Run
import Idealize.ShloMosaic.Lib.Pipeline.Frame

noncomputable section

open Idealize.ShloMosaic Idealize.ShloMosaic.TcCoe Idealize.SL.Sem

namespace Cert.KernelIdeal.Hand

open Cert.KernelIdeal Cert.KernelIdeal.Gen

variable {F : FTy → Type} [FloatOps F]

/-! ## Contents carried to a typed reference's buffer and back -/

/-- Contents carried to a typed reference's buffer and back are the contents. -/
theorem ofBuf_toBuf {Val : EltTy → Type} {T : BufTy} (x : StableHlo.TRef sig T) (v : T.Contents Val) :
    x.ofBuf (x.toBuf v) = v := by
  obtain ⟨r, h, _, _⟩ := x
  subst h
  rfl

/-- At a literal reference whose buffer has the value's type the carrying is the identity. -/
theorem toBuf_v4 (v : (⟨S800000x64, .f32⟩ : BufTy).Contents (Elt F)) :
    (StableHlo.TRef.of main_v4 : StableHlo.TRef sig ⟨S800000x64, .f32⟩).toBuf v = v := rfl
theorem ofBuf_v1 (v : (⟨S800000, .i32⟩ : BufTy).Contents (Elt F)) :
    (StableHlo.TRef.of main_v1 : StableHlo.TRef sig ⟨S800000, .i32⟩).ofBuf v = v := rfl
theorem ofBuf_arg0 (v : (⟨S50000x64, .f32⟩ : BufTy).Contents (Elt F)) :
    (StableHlo.TRef.of main_arg0 : StableHlo.TRef sig ⟨S50000x64, .f32⟩).ofBuf v = v := rfl

/-! ## The first stretch: the two rows of the edge words -/

section First
variable (G : Valuation τ sig (Elt F))

theorem first_v1 : (StableHlo.after (hostOps0 (F := F)) G (Proc.devRef .tc main_v1) : S800000.Idx → BitVec 32)
    = srcVec (G (Proc.devRef .tc main_arg1)) := by
  simp only [hostOps0]; after_results_simp; rfl
theorem first_v3 : (StableHlo.after (hostOps0 (F := F)) G (Proc.devRef .tc main_v3) : S800000.Idx → BitVec 32)
    = dstVec (G (Proc.devRef .tc main_arg1)) := by
  simp only [hostOps0]; after_results_simp; rfl
theorem first_arg0 : StableHlo.after (hostOps0 (F := F)) G (Proc.devRef .tc main_arg0) = G (Proc.devRef .tc main_arg0) := by
  simp only [hostOps0]; after_results_simp
theorem first_arg2 : StableHlo.after (hostOps0 (F := F)) G (Proc.devRef .tc main_arg2) = G (Proc.devRef .tc main_arg2) := by
  simp only [hostOps0]; after_results_simp
theorem first_arg3 : StableHlo.after (hostOps0 (F := F)) G (Proc.devRef .tc main_arg3) = G (Proc.devRef .tc main_arg3) := by
  simp only [hostOps0]; after_results_simp

end First

/-! ## The second stretch: the row lookup -/

section Second
variable (G : Valuation τ sig (Elt F))

/-- The looked-up rows are `takeOf` of the features and the source words as the stretch finds them. -/
theorem second_v4 : (StableHlo.after (hostOps0_1 (F := F)) G (Proc.devRef .tc main_v4) : S800000x64.Idx → Elt F .f32)
    = takeOf (F := F) (G (Proc.devRef .tc main_arg0)) (G (Proc.devRef .tc main_v1)) := by
  simp only [hostOps0_1]
  after_results_simp
  simp only [ofBuf_toBuf]
  rw [toBuf_v4]
  simp only [ofBuf_v1, ofBuf_arg0]
  rfl

theorem second_v3 : StableHlo.after (hostOps0_1 (F := F)) G (Proc.devRef .tc main_v3) = G (Proc.devRef .tc main_v3) := by
  simp only [hostOps0_1]; after_results_simp
theorem second_arg0 : StableHlo.after (hostOps0_1 (F := F)) G (Proc.devRef .tc main_arg0) = G (Proc.devRef .tc main_arg0) := by
  simp only [hostOps0_1]; after_results_simp
theorem second_arg2 : StableHlo.after (hostOps0_1 (F := F)) G (Proc.devRef .tc main_arg2) = G (Proc.devRef .tc main_arg2) := by
  simp only [hostOps0_1]; after_results_simp
theorem second_arg3 : StableHlo.after (hostOps0_1 (F := F)) G (Proc.devRef .tc main_arg3) = G (Proc.devRef .tc main_arg3) := by
  simp only [hostOps0_1]; after_results_simp

end Second

/-! ## The third stretch: aggregation, count, scalings, weight factors -/

section Third
variable (G : Valuation τ sig (Elt F))

theorem third_v11 : (StableHlo.after (hostOps0_2 (F := F)) G (Proc.devRef .tc main_v11) : S50000.Idx → Elt F .f32)
    = cntOf (F := F) (G (Proc.devRef .tc main_v3)) := by
  simp only [hostOps0_2]; after_results_simp; rfl
theorem third_v27 : (StableHlo.after (hostOps0_2 (F := F)) G (Proc.devRef .tc main_v27) : S50000x64.Idx → Elt F .bf16)
    = truncf .bf16 (mulf (overFeatures (cntOf (F := F) (G (Proc.devRef .tc main_v3)))) (G (Proc.devRef .tc main_arg0))) bitsLt_bf16_f32 := by
  simp only [hostOps0_2]; after_results_simp; rfl
theorem third_v28 : (StableHlo.after (hostOps0_2 (F := F)) G (Proc.devRef .tc main_v28) : S50000x64.Idx → Elt F .bf16)
    = truncf .bf16 (sumOf (F := F) (G (Proc.devRef .tc main_v3)) (G (Proc.devRef .tc main_v4))) bitsLt_bf16_f32 := by
  simp only [hostOps0_2]; after_results_simp; rfl
theorem third_v26 : (StableHlo.after (hostOps0_2 (F := F)) G (Proc.devRef .tc main_v26) : S50000x64.Idx → Elt F .f32)
    = mulf (overFeatures (cntOf (F := F) (G (Proc.devRef .tc main_v3))))
        (broadcastInDim S50000x64 ![0, 1] bcast_S1x64_S50000x64_0_1 (broadcastInDim S1x64 ![1] bcast_S64_S1x64_1 (G (Proc.devRef .tc main_arg3)))) := by
  simp only [hostOps0_2]; after_results_simp; rfl
theorem third_v16 : (StableHlo.after (hostOps0_2 (F := F)) G (Proc.devRef .tc main_v16) : S64x64.Idx → Elt F .bf16)
    = aV (F := F) (G (Proc.devRef .tc main_arg2)) := by
  simp only [hostOps0_2]; after_results_simp; rfl
theorem third_v18 : (StableHlo.after (hostOps0_2 (F := F)) G (Proc.devRef .tc main_v18) : S64x64.Idx → Elt F .bf16)
    = bV (F := F) (G (Proc.devRef .tc main_arg2)) := by
  simp only [hostOps0_2]; after_results_simp; rfl

end Third

/-! ## The three stretches composed -/

variable (m : (ℓ : Loc nD τ sig) → Buf (Elt F) ℓ)

/-- The contents at the region's entry, stretch after stretch. -/
theorem V0_eq (c : Dev nD) : V0 m c
    = StableHlo.after hostOps0_2 (StableHlo.after hostOps0_1 (StableHlo.after hostOps0 (fun b => m (c, b)))) := by
  show StableHlo.after (List.flatten [hostOps0, hostOps0_1, hostOps0_2]) _ = _
  rw [List.flatten_cons, List.flatten_cons, List.flatten_cons, List.flatten_nil, List.append_nil,
    StableHlo.after_append, StableHlo.after_append]

theorem V_main_v11 (c : Dev nD) : (V m c main_v11 : S50000.Idx → Elt F .f32)
    = cntOf (F := F) (dstVec (m ((c : Thread nD τ).loc main_arg1))) := by
  show V0 m c (Proc.devRef .tc main_v11) = _
  rw [V0_eq, third_v11, second_v3, first_v3]

theorem V_main_v27 (c : Dev nD) : (V m c main_v27 : S50000x64.Idx → Elt F .bf16)
    = xcV (F := F) (m ((c : Thread nD τ).loc main_arg0)) (m ((c : Thread nD τ).loc main_arg1)) := by
  show V0 m c (Proc.devRef .tc main_v27) = _
  rw [V0_eq, third_v27, second_v3, first_v3, second_arg0, first_arg0]
  rfl

theorem V_main_v28 (c : Dev nD) : (V m c main_v28 : S50000x64.Idx → Elt F .bf16)
    = sV (F := F) (m ((c : Thread nD τ).loc main_arg0)) (m ((c : Thread nD τ).loc main_arg1)) := by
  show V0 m c (Proc.devRef .tc main_v28) = _
  rw [V0_eq, third_v28, second_v3, first_v3, second_v4, first_arg0, first_v1]
  rfl

theorem V_main_v26 (c : Dev nD) : (V m c main_v26 : S50000x64.Idx → Elt F .f32)
    = biasV (F := F) (m ((c : Thread nD τ).loc main_arg1)) (m ((c : Thread nD τ).loc main_arg3)) := by
  show V0 m c (Proc.devRef .tc main_v26) = _
  rw [V0_eq, third_v26, second_v3, first_v3, second_arg3, first_arg3]
  rfl

theorem V_main_v16 (c : Dev nD) : (V m c main_v16 : S64x64.Idx → Elt F .bf16)
    = aV (F := F) (m ((c : Thread nD τ).loc main_arg2)) := by
  show V0 m c (Proc.devRef .tc main_v16) = _
  rw [V0_eq, third_v16, second_arg2, first_arg2]

theorem V_main_v18 (c : Dev nD) : (V m c main_v18 : S64x64.Idx → Elt F .bf16)
    = bV (F := F) (m ((c : Thread nD τ).loc main_arg2)) := by
  show V0 m c (Proc.devRef .tc main_v18) = _
  rw [V0_eq, third_v18, second_arg2, first_arg2]

end Cert.KernelIdeal.Hand

end
-- ==== Proof.KerPayload.lean ====
/-
  What the kernel body stores, read at one entry over the extended reals.

  The body forms two matrix products into a zero accumulator, adds them, and adds a third block entry by entry. Each
  product contracts the second axis of a [5000, 64] block with the first axis of a [64, 64] block, so its entry at
  (p, q) is the sum over k < 64 of left (p, k) times right (k, q); over the extended reals the zero accumulator adds
  nothing, and the shape casts of a block to its own shape change nothing. The stored entry at (p, q) is therefore
      (Σ_k x0 (p, k) · x3 (k, q) + Σ_k x1 (p, k) · x4 (k, q)) + x2 (p, q).
-/
import proofs.«431435_j60859686584363_3_alg».proof.Proof.Gen.KernelIdeal.Skeleton
import Idealize.ShloMosaic.Lib.ValueIdx
import Idealize.ShloMosaic.Lib.Pipeline.Value
import Idealize.ShloMosaic.PureOps.Ideal.Laws
import Mathlib.Algebra.BigOperators.Group.Finset.Basic

noncomputable section

open scoped BigOperators

namespace Cert.KernelIdeal.Hand

open Idealize.ShloMosaic Idealize.ShloMosaic.ValueIdx Cert.KernelIdeal Cert.KernelIdeal.Gen

/-- The left operand's row coordinate is the result's row: axis 0 of the left block is its free axis. -/
theorem lhs_dot_0 (i : S5000x64.Idx) (c : dot_S5000x64_S64x64_S5000x64_1_0_0_1_n_n.contr.Idx) :
    (dot_S5000x64_S64x64_S5000x64_1_0_0_1_n_n.lhsIdx i c 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl

/-- The left operand's column coordinate is the contraction coordinate: axis 1 of the left block is contracted. -/
theorem lhs_dot_1 (i : S5000x64.Idx) (c : dot_S5000x64_S64x64_S5000x64_1_0_0_1_n_n.contr.Idx) :
    (dot_S5000x64_S64x64_S5000x64_1_0_0_1_n_n.lhsIdx i c 1).val = (c ⟨0, by decide⟩).val :=
  dot_S5000x64_S64x64_S5000x64_1_0_0_1_n_n.lhsIdx_val_of_single rfl i c

/-- The right operand's row coordinate is the contraction coordinate: axis 0 of the right block is contracted. -/
theorem rhs_dot_0 (i : S5000x64.Idx) (c : dot_S5000x64_S64x64_S5000x64_1_0_0_1_n_n.contr.Idx) :
    (dot_S5000x64_S64x64_S5000x64_1_0_0_1_n_n.rhsIdx i c 0).val = (c ⟨0, by decide⟩).val :=
  dot_S5000x64_S64x64_S5000x64_1_0_0_1_n_n.rhsIdx_val_of_single rfl i c

/-- The right operand's column coordinate is the result's column: axis 1 of the right block is its free axis. -/
theorem rhs_dot_1 (i : S5000x64.Idx) (c : dot_S5000x64_S64x64_S5000x64_1_0_0_1_n_n.contr.Idx) :
    (dot_S5000x64_S64x64_S5000x64_1_0_0_1_n_n.rhsIdx i c 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A product of a [5000, 64] block with a [64, 64] block into the zero accumulator, at entry (p, q): the sum over the 64
    contraction positions k of left (p, k) times right (k, q). The contraction index set has one axis of extent 64, and the
    sum is re-indexed along the bijection of that set with the numbers below 64. -/
theorem matmul_zero_apply (l : FVec Ideal S5000x64 .bf16) (r : FVec Ideal S64x64 .bf16) (p : Fin 5000) (q : Fin 64) :
    matmul dot_S5000x64_S64x64_S5000x64_1_0_0_1_n_n none l r (constant (F := Ideal) S5000x64 .f32 0x00000000#32) (ix2 p q)
      = ∑ k : Fin 64, l (ix2 p k) * r (ix2 k q) := by
  simp only [matmul]
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact lhs_dot_0 _ _
    | ⟨1, _⟩ => exact (lhs_dot_1 _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (rhs_dot_0 _ _).trans hk
    | ⟨1, _⟩ => exact rhs_dot_1 _ _)
  rw [el, er]

/-- The stored block at entry (p, q): the two products' entries added, plus the third block's entry. -/
theorem pay_apply (x0 x1 : FVec Ideal S5000x64 .bf16) (x3 x4 : FVec Ideal S64x64 .bf16) (x2 : FVec Ideal S5000x64 .f32) (p : Fin 5000) (q : Fin 64) :
    k0_pay1 (F := Ideal) x0 x1 x3 x4 x2 (ix2 p q)
      = ((∑ k : Fin 64, x0 (ix2 p k) * x3 (ix2 k q)) + ∑ k : Fin 64, x1 (ix2 p k) * x4 (ix2 k q)) + x2 (ix2 p q) := by
  unfold k0_pay1
  simp only [shapeCast_self]
  show (matmul dot_S5000x64_S64x64_S5000x64_1_0_0_1_n_n none x0 x3 (constant (F := Ideal) S5000x64 .f32 0x00000000#32) (ix2 p q)
      + matmul dot_S5000x64_S64x64_S5000x64_1_0_0_1_n_n none x1 x4 (constant (F := Ideal) S5000x64 .f32 0x00000000#32) (ix2 p q)) + x2 (ix2 p q) = _
  rw [matmul_zero_apply, matmul_zero_apply]

end Cert.KernelIdeal.Hand

end
-- ==== Proof.KerValue.lean ====
/-
  The kernel program's result array as one function of its arguments.

  The region's grid has 10 points; point t reads rows 5000 t … 5000 t + 4999 of the scaled features, of the summed
  source rows and of the scaled bias, and the two whole 64 × 64 weight factors, and writes rows 5000 t … 5000 t + 4999 of
  the result: entry (r, o) of a block is Σ_k xc(r,k)·A(k,o) + Σ_k s(r,k)·B(k,o) + bias(r,o), which depends on row r of the
  three tall arrays only. So every block written back is the corresponding block of ONE function of the five arrays
  (`rawOf`), the ten blocks tile the 50000 rows, and the result array ends holding that function. The host then divides
  it, entry by entry, by the larger of the count and 1.
-/
import proofs.«431435_j60859686584363_3_alg».proof.Proof.Gen.KernelIdeal.Frame
import proofs.«431435_j60859686584363_3_alg».proof.Proof.KerDefs
import proofs.«431435_j60859686584363_3_alg».proof.Proof.KerHost
import proofs.«431435_j60859686584363_3_alg».proof.Proof.KerPayload
import Idealize.ShloMosaic.Lib.Pipeline.Value
import Idealize.ShloMosaic.Lib.StableHlo.Run
import Idealize.ShloMosaic.Lib.Tactic

set_option maxHeartbeats 400000

noncomputable section

open scoped BigOperators
open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

/-- The region's result at (n, o) from the five arrays it reads: two 64-term products and the bias term. -/
def rawOf (xc s : FVec Ideal S50000x64 .bf16) (bias : FVec Ideal S50000x64 .f32) (a bm : FVec Ideal S64x64 .bf16) :
    FVec Ideal S50000x64 .f32 := fun i =>
  ((∑ k : Fin 64, xc (ix2 (⟨(i 0).val, (i 0).isLt⟩ : Fin 50000) k) * a (ix2 k (⟨(i 1).val, (i 1).isLt⟩ : Fin 64)))
    + ∑ k : Fin 64, s (ix2 (⟨(i 0).val, (i 0).isLt⟩ : Fin 50000) k) * bm (ix2 k (⟨(i 1).val, (i 1).isLt⟩ : Fin 64)))
  + bias i

theorem rawOf_ix2 (xc s : FVec Ideal S50000x64 .bf16) (bias : FVec Ideal S50000x64 .f32) (a bm : FVec Ideal S64x64 .bf16)
    (n : Fin 50000) (o : Fin 64) :
    rawOf xc s bias a bm (ix2 n o)
      = ((∑ k : Fin 64, xc (ix2 n k) * a (ix2 k o)) + ∑ k : Fin 64, s (ix2 n k) * bm (ix2 k o)) + bias (ix2 n o) := rfl

/-- What the body stores at a point whose blocks are rows 5000 T … of the tall arrays and the whole weight factors:
    the rows 5000 T … of `rawOf`. -/
theorem point_eq (x0 x1 : FVec Ideal S5000x64 .bf16) (x3 x4 : FVec Ideal S64x64 .bf16) (x2 : FVec Ideal S5000x64 .f32)
    (xc s : FVec Ideal S50000x64 .bf16) (bias : FVec Ideal S50000x64 .f32) (a bm : FVec Ideal S64x64 .bf16)
    (T : Nat) (hT : T < 10)
    (h0 : ∀ (p : Fin 5000) (k : Fin 64), x0 (ix2 p k) = xc (ix2 (⟨5000 * T + p.val, by omega⟩ : Fin 50000) k))
    (h1 : ∀ (p : Fin 5000) (k : Fin 64), x1 (ix2 p k) = s (ix2 (⟨5000 * T + p.val, by omega⟩ : Fin 50000) k))
    (h2 : ∀ (p : Fin 5000) (q : Fin 64), x2 (ix2 p q) = bias (ix2 (⟨5000 * T + p.val, by omega⟩ : Fin 50000) q))
    (h3 : ∀ (k q : Fin 64), x3 (ix2 k q) = a (ix2 k q)) (h4 : ∀ (k q : Fin 64), x4 (ix2 k q) = bm (ix2 k q))
    (p : Fin 5000) (q : Fin 64) :
    k0_pay1 (F := Ideal) x0 x1 x3 x4 x2 (ix2 p q)
      = rawOf xc s bias a bm (ix2 (⟨5000 * T + p.val, by omega⟩ : Fin 50000) q) := by
  rw [pay_apply, rawOf_ix2]
  simp only [h0, h1, h2, h3, h4]

variable (m : (ℓ : Loc nD τ sig) → Buf (Elt Ideal) ℓ) (ρ : Dev nD → PrngReg)

theorem hz : (![0, 0] : Fin 2 → Nat) = fun _ => 0 := funext fun a => by fin_cases a <;> rfl

/-- The printed index maps, decided over the ten grid points: the three tall input windows and the output window sit
    at block row t … -/
theorem idx_tall : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_5.index t (0 : Fin 2) = t.val ∧ win0_5.index t (1 : Fin 2) = 0 :=
  (by decide +kernel : ∀ t : Fin grid0.N, _)

/-- … and the two weight windows at block (0, 0). -/
theorem idx_square : ∀ t : Fin cfg0.N,
    win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

theorem t_lt (t : Fin cfg0.N) : t.val < 10 := lt_of_lt_of_eq t.isLt N_0

/-! ## A window's block read off any array: rows 5000 t … of a tall array, the whole of a weight factor -/

theorem read_blk0 (A : S50000x64.Idx → Elt Ideal .bf16) (t : Fin cfg0.N) (p : Fin 5000) (k : Fin 64) :
    ((cfg0.win 0).blk t).view.read (Elt Ideal) A (ix2 p k)
      = A (ix2 (⟨5000 * t.val + p.val, by have := t_lt t; omega⟩ : Fin 50000) k) := by
  have e0 := idx_tall t
  show A (((cfg0.win 0).blk t).view.emb (ix2 p k)) = _
  refine congrArg A (funext fun a => Fin.ext ?_)
  match a with
  | ⟨0, _⟩ => show win0_0.index t (0 : Fin 2) * 5000 + 1 * p.val = 5000 * t.val + p.val; rw [e0.1]; omega
  | ⟨1, _⟩ => show win0_0.index t (1 : Fin 2) * 64 + 1 * k.val = k.val; rw [e0.2.1]; omega

theorem read_blk1 (A : S50000x64.Idx → Elt Ideal .bf16) (t : Fin cfg0.N) (p : Fin 5000) (k : Fin 64) :
    ((cfg0.win 1).blk t).view.read (Elt Ideal) A (ix2 p k)
      = A (ix2 (⟨5000 * t.val + p.val, by have := t_lt t; omega⟩ : Fin 50000) k) := by
  have e0 := idx_tall t
  show A (((cfg0.win 1).blk t).view.emb (ix2 p k)) = _
  refine congrArg A (funext fun a => Fin.ext ?_)
  match a with
  | ⟨0, _⟩ => show win0_1.index t (0 : Fin 2) * 5000 + 1 * p.val = 5000 * t.val + p.val; rw [e0.2.2.1]; omega
  | ⟨1, _⟩ => show win0_1.index t (1 : Fin 2) * 64 + 1 * k.val = k.val; rw [e0.2.2.2.1]; omega

theorem read_blk2 (A : S50000x64.Idx → Elt Ideal .f32) (t : Fin cfg0.N) (p : Fin 5000) (k : Fin 64) :
    ((cfg0.win 2).blk t).view.read (Elt Ideal) A (ix2 p k)
      = A (ix2 (⟨5000 * t.val + p.val, by have := t_lt t; omega⟩ : Fin 50000) k) := by
  have e0 := idx_tall t
  show A (((cfg0.win 2).blk t).view.emb (ix2 p k)) = _
  refine congrArg A (funext fun a => Fin.ext ?_)
  match a with
  | ⟨0, _⟩ => show win0_2.index t (0 : Fin 2) * 5000 + 1 * p.val = 5000 * t.val + p.val; rw [e0.2.2.2.2.1]; omega
  | ⟨1, _⟩ => show win0_2.index t (1 : Fin 2) * 64 + 1 * k.val = k.val; rw [e0.2.2.2.2.2.1]; omega

theorem read_blk5 (A : S50000x64.Idx → Elt Ideal .f32) (t : Fin cfg0.N) (p : Fin 5000) (k : Fin 64) :
    ((cfg0.win 5).blk t).view.read (Elt Ideal) A (ix2 p k)
      = A (ix2 (⟨5000 * t.val + p.val, by have := t_lt t; omega⟩ : Fin 50000) k) := by
  have e0 := idx_tall t
  show A (((cfg0.win 5).blk t).view.emb (ix2 p k)) = _
  refine congrArg A (funext fun a => Fin.ext ?_)
  match a with
  | ⟨0, _⟩ => show win0_5.index t (0 : Fin 2) * 5000 + 1 * p.val = 5000 * t.val + p.val; rw [e0.2.2.2.2.2.2.1]; omega
  | ⟨1, _⟩ => show win0_5.index t (1 : Fin 2) * 64 + 1 * k.val = k.val; rw [e0.2.2.2.2.2.2.2]; omega

theorem read_blk3 (A : S64x64.Idx → Elt Ideal .bf16) (t : Fin cfg0.N) (k q : Fin 64) :
    ((cfg0.win 3).blk t).view.read (Elt Ideal) A (ix2 k q) = A (ix2 k q) := by
  have e0 := idx_square t
  show A (((cfg0.win 3).blk t).view.emb (ix2 k q)) = _
  refine congrArg A (funext fun a => Fin.ext ?_)
  match a with
  | ⟨0, _⟩ => show win0_3.index t (0 : Fin 2) * 64 + 1 * k.val = k.val; rw [e0.1]; omega
  | ⟨1, _⟩ => show win0_3.index t (1 : Fin 2) * 64 + 1 * q.val = q.val; rw [e0.2.1]; omega

theorem read_blk4 (A : S64x64.Idx → Elt Ideal .bf16) (t : Fin cfg0.N) (k q : Fin 64) :
    ((cfg0.win 4).blk t).view.read (Elt Ideal) A (ix2 k q) = A (ix2 k q) := by
  have e0 := idx_square t
  show A (((cfg0.win 4).blk t).view.emb (ix2 k q)) = _
  refine congrArg A (funext fun a => Fin.ext ?_)
  match a with
  | ⟨0, _⟩ => show win0_4.index t (0 : Fin 2) * 64 + 1 * k.val = k.val; rw [e0.2.2.1]; omega
  | ⟨1, _⟩ => show win0_4.index t (1 : Fin 2) * 64 + 1 * q.val = q.val; rw [e0.2.2.2]; omega

/-! ## The five arrays the region finds -/

/-- The five arrays as the region finds them, each under a name of its own. -/
def arrXc (c : Dev nD) : FVec Ideal S50000x64 .bf16 := V m c main_v27
def arrS (c : Dev nD) : FVec Ideal S50000x64 .bf16 := V m c main_v28
def arrBias (c : Dev nD) : FVec Ideal S50000x64 .f32 := V m c main_v26
def arrA (c : Dev nD) : FVec Ideal S64x64 .bf16 := V m c main_v16
def arrB (c : Dev nD) : FVec Ideal S64x64 .bf16 := V m c main_v18

/-- They are the named terms of the arguments. -/
theorem arrXc_eq (c : Dev nD) : arrXc m c = xcV (F := Ideal) (m ((c : Thread nD τ).loc main_arg0)) (m ((c : Thread nD τ).loc main_arg1)) := by
  unfold arrXc; exact V_main_v27 m c
theorem arrS_eq (c : Dev nD) : arrS m c = sV (F := Ideal) (m ((c : Thread nD τ).loc main_arg0)) (m ((c : Thread nD τ).loc main_arg1)) := by
  unfold arrS; exact V_main_v28 m c
theorem arrBias_eq (c : Dev nD) : arrBias m c = biasV (F := Ideal) (m ((c : Thread nD τ).loc main_arg1)) (m ((c : Thread nD τ).loc main_arg3)) := by
  unfold arrBias; exact V_main_v26 m c
theorem arrA_eq (c : Dev nD) : arrA m c = aV (F := Ideal) (m ((c : Thread nD τ).loc main_arg2)) := by
  unfold arrA; exact V_main_v16 m c
theorem arrB_eq (c : Dev nD) : arrB m c = bV (F := Ideal) (m ((c : Thread nD τ).loc main_arg2)) := by
  unfold arrB; exact V_main_v18 m c

/-- The region's result as the function of the five arrays the region finds. -/
def rawV (c : Dev nD) : FVec Ideal S50000x64 .f32 :=
  rawOf (arrXc m c) (arrS m c) (arrBias m c) (arrA m c) (arrB m c)

/-! ## Each input window's block -/

theorem iblk0_apply (c : Dev nD) (t : Fin cfg0.N) (p : Fin 5000) (k : Fin 64) :
    (iblk m c 0 t : Vec Ideal S5000x64 .bf16) (ix2 p k)
      = arrXc m c (ix2 (⟨5000 * t.val + p.val, by have := t_lt t; omega⟩ : Fin 50000) k) := by
  unfold iblk arrXc
  exact read_blk0 (V m c main_v27) t p k
theorem iblk1_apply (c : Dev nD) (t : Fin cfg0.N) (p : Fin 5000) (k : Fin 64) :
    (iblk m c 1 t : Vec Ideal S5000x64 .bf16) (ix2 p k)
      = arrS m c (ix2 (⟨5000 * t.val + p.val, by have := t_lt t; omega⟩ : Fin 50000) k) := by
  unfold iblk arrS
  exact read_blk1 (V m c main_v28) t p k
theorem iblk2_apply (c : Dev nD) (t : Fin cfg0.N) (p : Fin 5000) (q : Fin 64) :
    (iblk m c 2 t : Vec Ideal S5000x64 .f32) (ix2 p q)
      = arrBias m c (ix2 (⟨5000 * t.val + p.val, by have := t_lt t; omega⟩ : Fin 50000) q) := by
  unfold iblk arrBias
  exact read_blk2 (V m c main_v26) t p q
theorem iblk3_apply (c : Dev nD) (t : Fin cfg0.N) (k q : Fin 64) :
    (iblk m c 3 t : Vec Ideal S64x64 .bf16) (ix2 k q) = arrA m c (ix2 k q) := by
  unfold iblk arrA
  exact read_blk3 (V m c main_v16) t k q
theorem iblk4_apply (c : Dev nD) (t : Fin cfg0.N) (k q : Fin 64) :
    (iblk m c 4 t : Vec Ideal S64x64 .bf16) (ix2 k q) = arrB m c (ix2 k q) := by
  unfold iblk arrB
  exact read_blk4 (V m c main_v18) t k q

/-! ## What a point writes back, the cover, the final array -/

/-- Point t writes back block t of `rawV`. -/
theorem flushed5_eq (c : Dev nD) (t : Fin cfg0.N) :
    (dats m 0 c).flushed 5 t = ((cfg0.win 5).blk t).view.read (Elt Ideal) (rawV m c) := by
  show (cfg0.win 5).cut (grid0.coords t) ((dats m 0 c).after 5 t) = _
  rw [after0_5]
  unfold out0_5
  rw [View.canon_unit_zero hz]
  simp only [View.ld_unit_zero (S := S5000x64) hz, View.ld_unit_zero (S := S64x64) hz]
  funext j
  obtain ⟨p, q, rfl⟩ : ∃ (p : Fin 5000) (q : Fin 64), j = ix2 p q := ⟨j 0, j 1, eq_ix2 j⟩
  refine Eq.trans ?_ (read_blk5 (rawV m c) t p q).symm
  exact point_eq (iblk m c 0 t) (iblk m c 1 t) (iblk m c 3 t) (iblk m c 4 t) (iblk m c 2 t)
    (arrXc m c) (arrS m c) (arrBias m c) (arrA m c) (arrB m c) t.val (t_lt t)
    (iblk0_apply m c t) (iblk1_apply m c t) (iblk2_apply m c t) (iblk3_apply m c t) (iblk4_apply m c t) p q

/-- An index of the result array is in point t's block iff each coordinate is in the block's range on its axis. -/
theorem mem_blk5 (t : Fin cfg0.N) (i : S50000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v29).slice (win0_5.rect t)).set ↔ _
  rw [View.set_slice_whole, Rect.mem_set_unit]
  exact Iff.rfl

/-- Every index of the result array is in the block of the point its row falls in. -/
theorem cover5 (i : S50000x64.Idx) : ∃ t : Fin cfg0.N, (cfg0.win 5).flush t = true ∧ i ∈ ((cfg0.win 5).blk t).view.set := by
  have hi0 : (i 0).val < 50000 := (i 0).isLt
  have hi1 : (i 1).val < 64 := (i 1).isLt
  have ht : (i 0).val / 5000 < cfg0.N := lt_of_lt_of_eq (by omega : (i 0).val / 5000 < 10) N_0.symm
  have e0 := idx_tall ⟨(i 0).val / 5000, ht⟩
  refine ⟨⟨(i 0).val / 5000, ht⟩, flush0_5 _, ?_⟩
  rw [mem_blk5]
  intro a
  match a with
  | ⟨0, _⟩ =>
    show win0_5.index ⟨(i 0).val / 5000, ht⟩ (0 : Fin 2) * 5000 ≤ (i 0).val
      ∧ (i 0).val < win0_5.index ⟨(i 0).val / 5000, ht⟩ (0 : Fin 2) * 5000 + 5000
    rw [e0.2.2.2.2.2.2.1]
    show (i 0).val / 5000 * 5000 ≤ (i 0).val ∧ (i 0).val < (i 0).val / 5000 * 5000 + 5000
    omega
  | ⟨1, _⟩ =>
    show win0_5.index ⟨(i 0).val / 5000, ht⟩ (1 : Fin 2) * 64 ≤ (i 1).val
      ∧ (i 1).val < win0_5.index ⟨(i 0).val / 5000, ht⟩ (1 : Fin 2) * 64 + 64
    rw [e0.2.2.2.2.2.2.2]
    omega

/-- The result array after the region is `rawV`. -/
theorem final5 (c : Dev nD) : (dats m 0 c).arrAt 5 cfg0.N = rawV m c :=
  (dats m 0 c).arrAt_eq_of_cover 5 (rawV m c) (fun t _ => flushed5_eq m c t) cover5

/-! ## The host operations after the region, and the run -/

/-- The program's result buffer after the host operations that follow the region: the region's array divided, entry by
    entry, by the larger of the count and 1 spread over the features. -/
theorem tail_eq (c : Dev nD) :
    (Pipeline.afterTail₀ cfgs (dats m) 0 (V0 m) [hostOps1] c main_v34 : S50000x64.Idx → EReal)
      = Host.divf (F := Ideal) (rawV m c) (divisorV (F := Ideal) (m ((c : Thread nD τ).loc main_arg1))) := by
  have h29 : Pipeline.withArrays (cfgs 0).spec c (V0 m c) (fun w => (dats m 0 c).arrAt w (cfgs 0).N) (Proc.devRef .tc main_v29)
      = (dats m 0 c).arrAt 5 cfg0.N := Pipeline.withArrays_arr spec0 launch0.win.arr_inj c _ _ 5
  have h11 : Pipeline.withArrays (cfgs 0).spec c (V0 m c) (fun w => (dats m 0 c).arrAt w (cfgs 0).N) (Proc.devRef .tc main_v11)
      = V m c main_v11 :=
    Pipeline.withArrays_of_ne _ c (V0 m c) _ main_v11 (by exact (by decide : ∀ w, Pipeline.arrRef spec0 w ≠ main_v11))
  unfold Pipeline.afterTail₀
  simp only [List.flatten_cons, List.flatten_nil, List.append_nil, hostOps1]
  after_results_simp
  rw [h29, h11, final5, V_main_v11]
  rfl

/-- The kernel program's run, read: the result buffer at the quotient, the arguments unchanged. -/
theorem run : θ_run defs (onTc (τ := τ) (main (F := Ideal))) ⟨m, fun _ => 0, ρ⟩ fun r => ∀ c : Dev nD,
      r.2.mem ((c.tc : Thread nD τ).loc main_v34)
        = Host.divf (F := Ideal) (rawV m c) (divisorV (F := Ideal) (m ((c : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).2 main_v34 (Pipeline.mem_restRefs_of main_v34 (by decide) (by decide))).trans (tail_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c))⟩)
    (run_main m ρ)

end Cert.KernelIdeal.Hand

end
-- ==== Proof.Spec.lean ====
/-
  The mathematics of an edge-convolution layer with mean aggregation, over the extended reals, for a graph of
  50000 nodes with 64 features each and 800000 directed edges (a source row and a destination row of 32-bit words).

  Per edge e with destination node i = dst e and source node j = src e the message is
      msg e = W · [x_i ; x_j − x_i] + b            (W a 64 × 128 matrix, b a vector of 64),
  and node n receives the sum of the messages of the edges whose destination is n, divided by max (count n) 1, where
  count n is the number of such edges.

  Two arrangements of that sum are named here. `refSum` adds the messages edge by edge. `kerSum` uses that the sum
  over the edges into n is linear: with W = [W₁ | W₂] split into its two 64-column halves,
      Σ_{e → n} msg e = (count n · x_n) · (W₁ − W₂)ᵀ + (Σ_{e → n} x_{src e}) · W₂ᵀ + count n · b,
  because x_{dst e} = x_n for every edge into n. The identity needs distributivity, which holds on the reals but not at
  the infinities of the extended reals: it is stated for finite x, W and b (`kerSum_eq_refSum`, proved in
  Proof/Algebra.lean).

  A row lookup normalises its word first (a negative word counts from the end), then reads the word signed and clamps it
  into the rows; the aggregation takes the destination word signed and unclamped, and an edge whose destination word is
  no row contributes nowhere.
-/
import Idealize.ShloMosaic.PureOps.Ideal
import Idealize.ShloMosaic.Lib.ValueIdx
import Idealize.ShloMosaic.Lib.IdealHost
import Mathlib.Algebra.BigOperators.Group.Finset.Basic

noncomputable section

open scoped BigOperators

namespace Cert.EdgeConv

open Idealize.ShloMosaic Idealize.ShloMosaic.ValueIdx

/-- The node features [50000, 64], the edge words [2, 800000], the weights [64, 128] and the bias [64]. -/
abbrev SX : Shape := ⟨2, ![50000, 64]⟩
abbrev SE : Shape := ⟨2, ![2, 800000]⟩
abbrev SW : Shape := ⟨2, ![64, 128]⟩
abbrev SB : Shape := ⟨1, ![64]⟩

/-- A row lookup's word after index normalisation: a negative word counts from the end of the 50000 rows. -/
def wrapWord (s : BitVec 32) : BitVec 32 := if s.toInt < 0 then s + 50000#32 else s

/-- The row a lookup with word `s` reads: the normalised word, signed, clamped into the rows. -/
def rowOf (s : BitVec 32) : Fin 50000 := ⟨min (wrapWord s).toInt.toNat (50000 - 1), by omega⟩

/-- The source word and the destination word of edge `e`. -/
def srcW (ei : SE.Idx → BitVec 32) (e : Fin 800000) : BitVec 32 := ei (ix2 0 e)
def dstW (ei : SE.Idx → BitVec 32) (e : Fin 800000) : BitVec 32 := ei (ix2 1 e)

/-- The edges into node `n`: those whose destination word, read signed, is `n`. -/
def inbound (ei : SE.Idx → BitVec 32) (n : Fin 50000) : Finset (Fin 800000) :=
  Finset.univ.filter fun e => (dstW ei e).toInt = (n.val : ℤ)

/-- The f32 pattern of 1.0 as an extended real … -/
def one : EReal := Ideal.ofBits .f32 0x3F800000#32

/-- … is 1. -/
theorem one_eq : one = 1 := Ideal.ofBits_one_f32

/-- The number of edges into `n`, as the sum of a one per edge. -/
def cnt (ei : SE.Idx → BitVec 32) (n : Fin 50000) : EReal := ∑ _e ∈ inbound ei n, one

/-- Column `k` of the concatenated message input of edge `e`: the destination row's features, then source minus
    destination. -/
def msgIn (x : SX.Idx → EReal) (ei : SE.Idx → BitVec 32) (e : Fin 800000) (k : Fin 128) : EReal :=
  if h : k.val < 64 then x (ix2 (rowOf (dstW ei e)) ⟨k.val, h⟩)
  else x (ix2 (rowOf (srcW ei e)) ⟨k.val - 64, by omega⟩) - x (ix2 (rowOf (dstW ei e)) ⟨k.val - 64, by omega⟩)

/-- The messages into node `n`, output feature `o`, added edge by edge. -/
def refSum (x : SX.Idx → EReal) (ei : SE.Idx → BitVec 32) (W : SW.Idx → EReal) (b : SB.Idx → EReal)
    (n : Fin 50000) (o : Fin 64) : EReal :=
  ∑ e ∈ inbound ei n, ((∑ k : Fin 128, msgIn x ei e k * W (ix2 o k)) + b (ix1 o))

/-- The source rows' features summed over the edges into `n`. -/
def srcSum (x : SX.Idx → EReal) (ei : SE.Idx → BitVec 32) (n : Fin 50000) (k : Fin 64) : EReal :=
  ∑ e ∈ inbound ei n, x (ix2 (rowOf (srcW ei e)) k)

/-- The same total with the linear map pushed through the aggregation. -/
def kerSum (x : SX.Idx → EReal) (ei : SE.Idx → BitVec 32) (W : SW.Idx → EReal) (b : SB.Idx → EReal)
    (n : Fin 50000) (o : Fin 64) : EReal :=
  ((∑ k : Fin 64, (cnt ei n * x (ix2 n k)) * (W (ix2 o ⟨k.val, by omega⟩) - W (ix2 o ⟨64 + k.val, by omega⟩)))
    + ∑ k : Fin 64, srcSum x ei n k * W (ix2 o ⟨64 + k.val, by omega⟩))
  + cnt ei n * b (ix1 o)

/-- The layer's output at node `n`, feature `o`: the mean of the messages (the total itself at an isolated node). -/
def outAt (x : SX.Idx → EReal) (ei : SE.Idx → BitVec 32) (W : SW.Idx → EReal) (b : SB.Idx → EReal)
    (n : Fin 50000) (o : Fin 64) : EReal :=
  Ideal.div (refSum x ei W b n o) (max (cnt ei n) one)

/-- The output array. -/
def out (x : SX.Idx → EReal) (ei : SE.Idx → BitVec 32) (W : SW.Idx → EReal) (b : SB.Idx → EReal) : SX.Idx → EReal :=
  fun i => outAt x ei W b (i 0) (i 1)

theorem out_ix2 (x : SX.Idx → EReal) (ei : SE.Idx → BitVec 32) (W : SW.Idx → EReal) (b : SB.Idx → EReal)
    (n : Fin 50000) (o : Fin 64) : out x ei W b (ix2 n o) = outAt x ei W b n o := rfl

end Cert.EdgeConv

end
-- ==== Proof.LibRowGatherScatter.lean ====
/-
  GENERAL LEMMAS: two indexed host operations, the broadcasts that feed them, and two small companions, each READ AT AN
  INDEX over the extended reals, for ARBITRARY extents N (table rows), E (edges) and D (features).

  * the row gather (`x[idx]` of an [N, D] table at a column [E, 1] of start words: `rowGather`, `rowGather_apply`):
    result (e, q) is the table at (the start word of edge e read signed and clamped into the rows [0, N − 1], q);
  * the accumulating row scatter (`segment_sum` / `.at[idx].add` of [E, D] updates into an [N, D] operand at a column
    [E, 1] of start words: `rowScatter`, `rowScatter_resultIdx_iff`, `rowScatterAdd_apply`): update (e, q') lands at
    (the start word of edge e read signed and NOT clamped, q'), or nowhere when that is no row; so result (d, q) is the
    operand's entry plus the sum over the edges whose word, read signed, is d of update (e, q);
  * a scalar, a vector as a column, a column over the features, a vector as a row and a row over the rows, each
    broadcast read at an index (`bcastScalar_apply` … `bcastRows_apply`);
  * jnp's index normalisation as a select (`wrap_select`: a negative word counts from the end) and the maximum with a
    broadcast zero (`reluOps_apply`).
  Nothing here mentions a program: the dimension-number records are built from a well-formedness fact the caller has.
-/
import Idealize.ShloMosaic.PureOps.Ideal
import Idealize.ShloMosaic.PureOps.Contract
import Idealize.ShloMosaic.Lib.ValueIdx
import Idealize.ShloMosaic.Lib.Affine
import Idealize.ShloMosaic.Lib.Pipeline.Value
import Idealize.ShloMosaic.Lib.StackMember
import Mathlib.Algebra.BigOperators.Group.Finset.Basic
import Mathlib.Algebra.BigOperators.Fin

noncomputable section

open scoped BigOperators

namespace Cert.ReferenceIdeal.Hand

open Idealize.ShloMosaic Idealize.ShloMosaic.ValueIdx

/-! ## The row gather -/

section Gather
variable {α : Type}

/-- The dimension numbers of a gather of whole rows of an [N, D] table at a column [E, 1] of start words:
    the row axis collapsed and indexed, the feature axis an offset axis. -/
abbrev rowGather (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row gather at (e, q): the table at the clamped signed start word of e, feature q. -/
theorem rowGather_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (q : Fin D) :
    Host.gather (rowGather N E D wf) x idx (ix2 e q)
      = x (ix2 ⟨min (idx (ix2 e 0)).toInt.toNat (N - 1), by omega⟩ q) := by
  unfold Host.gather
  congr 1
  funext a
  refine Fin.ext ?_
  match a with
  | ⟨0, _⟩ =>
    show (rowGather N E D wf).start (ix2 e q) idx 0 + (rowGather N E D wf).batchCoord (ix2 e q) 0
      + (rowGather N E D wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E D wf).startIndexMap from List.mem_singleton.mpr rfl)]
    have hsi : (rowGather N E D wf).siIdx (ix2 e q) ⟨List.idxOf (0 : Fin 2) (rowGather N E D wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGather N E D wf).start (ix2 e q) idx 1 + (rowGather N E D wf).batchCoord (ix2 e q) 1
      + (rowGather N E D wf).offCoord (ix2 e q) 1 = q.val
    have h1 : (1 : Fin 2) ∉ (rowGather N E D wf).startIndexMap := by
      show (1 : Fin 2) ∉ [(0 : Fin 2)]
      decide
    rw [GatherDims.batchCoord_eq_zero _ _ _ List.not_mem_nil]
    unfold GatherDims.start
    rw [dif_neg h1]
    simp only [Nat.add_zero, Nat.zero_add]
    unfold GatherDims.offCoord
    rw [dif_pos ((GatherDims.mem_sKept _ _).mpr ⟨(show (1 : Fin 2) ∉ [(0 : Fin 2)] by decide), List.not_mem_nil⟩)]
    rfl

/-- The same with the start word of e named: the form a caller uses when the start words are themselves computed. -/
theorem rowGather_apply_of_eq {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (q : Fin D) (s : BitVec w)
    (hs : idx (ix2 e 0) = s) :
    Host.gather (rowGather N E D wf) x idx (ix2 e q) = x (ix2 ⟨min s.toInt.toNat (N - 1), by omega⟩ q) := by
  subst hs
  exact rowGather_apply hN wf x idx e q

end Gather

/-! ## The accumulating row scatter -/

section Scatter

/-- The dimension numbers of a scatter of whole rows [E, D] into an [N, D] operand at a column [E, 1] of start
    words: the feature axis a window axis, the row axis inserted and indexed. -/
abbrev rowScatter (N E D : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

variable {N E D w : Nat} (wf : ScatterDims.WF ⟨2, ![N, D]⟩ ⟨2, ![E, 1]⟩ ⟨2, ![E, D]⟩ [1] [0] [0] 1)
  (idx : IVec ⟨2, ![E, 1]⟩ w)

/-- On the row axis the window of update (e, q') starts at the start word of e, read signed … -/
theorem rowScatter_start_zero (e : Fin E) (q' : Fin D) :
    (rowScatter N E D wf).start (ix2 e q') idx 0 = (idx (ix2 e 0)).toInt := by
  unfold ScatterDims.start
  rw [dif_pos (show (0 : Fin 2) ∈ (rowScatter N E D wf).scatterDimsToOperandDims from List.mem_singleton.mpr rfl)]
  have hsi : (rowScatter N E D wf).siIdx (ix2 e q') ⟨List.idxOf (0 : Fin 2) (rowScatter N E D wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- … and on the feature axis at 0. -/
theorem rowScatter_start_one (e : Fin E) (q' : Fin D) :
    (rowScatter N E D wf).start (ix2 e q') idx 1 = 0 := by
  unfold ScatterDims.start
  rw [dif_neg (show (1 : Fin 2) ∉ [(0 : Fin 2)] by decide)]

/-- The window coordinate of update (e, q') is 0 on the row axis … -/
theorem rowScatter_window_zero (e : Fin E) (q' : Fin D) :
    (rowScatter N E D wf).window (ix2 e q') 0 = 0 := by
  unfold ScatterDims.window
  rw [dif_neg]
  show (0 : Fin 2) ∉ (List.finRange 2).filter (· ∉ [(0 : Fin 2)])
  decide

/-- … and q' on the feature axis. -/
theorem rowScatter_window_one (e : Fin E) (q' : Fin D) :
    (rowScatter N E D wf).window (ix2 e q') 1 = q'.val := by
  unfold ScatterDims.window
  have h1 : (1 : Fin 2) ∈ (rowScatter N E D wf).sKept := by
    show (1 : Fin 2) ∈ (List.finRange 2).filter (· ∉ [(0 : Fin 2)])
    decide
  rw [dif_pos h1]
  rfl

/-- Update (e, q') lands at (d, q) exactly when the start word of e, read signed, is d and q' = q. -/
theorem rowScatter_resultIdx_iff (e : Fin E) (q' : Fin D) (d : Fin N) (q : Fin D) :
    (rowScatter N E D wf).resultIdx? (ix2 e q') idx = some (ix2 d q)
      ↔ (idx (ix2 e 0)).toInt = (d.val : ℤ) ∧ q' = q := by
  unfold ScatterDims.resultIdx?
  split
  · next h =>
    rw [Option.some.injEq]
    have h0 := h 0
    have h1 := h 1
    rw [rowScatter_start_zero, rowScatter_window_zero] at h0
    constructor
    · intro hf
      have e0 := congrArg (fun f => (f 0).val) hf
      have e1 := congrArg (fun f => (f 1).val) hf
      simp only [rowScatter_start_zero, rowScatter_window_zero, rowScatter_start_one, rowScatter_window_one] at e0 e1
      refine ⟨?_, Fin.ext ?_⟩
      · have : ((ix2 d q : (⟨2, ![N, D]⟩ : Shape).Idx) 0).val = d.val := rfl
        omega
      · have : ((ix2 d q : (⟨2, ![N, D]⟩ : Shape).Idx) 1).val = q.val := rfl
        omega
    · rintro ⟨hd, rfl⟩
      funext a
      refine Fin.ext ?_
      match a with
      | ⟨0, _⟩ =>
        show ((rowScatter N E D wf).start (ix2 e q') idx 0 + ((rowScatter N E D wf).window (ix2 e q') 0 : ℕ)).toNat = d.val
        rw [rowScatter_start_zero, rowScatter_window_zero]
        omega
      | ⟨1, _⟩ =>
        show ((rowScatter N E D wf).start (ix2 e q') idx 1 + ((rowScatter N E D wf).window (ix2 e q') 1 : ℕ)).toNat = q'.val
        rw [rowScatter_start_one, rowScatter_window_one]
        omega
  · next h =>
    constructor
    · intro hf
      exact absurd hf (by simp)
    · rintro ⟨hd, rfl⟩
      exfalso
      apply h
      intro a
      match a with
      | ⟨0, _⟩ =>
        show 0 ≤ (rowScatter N E D wf).start (ix2 e q') idx 0 + ((rowScatter N E D wf).window (ix2 e q') 0 : ℕ)
          ∧ (rowScatter N E D wf).start (ix2 e q') idx 0 + ((rowScatter N E D wf).window (ix2 e q') 0 : ℕ) < (N : ℤ)
        rw [rowScatter_start_zero, rowScatter_window_zero]
        have := d.isLt
        omega
      | ⟨1, _⟩ =>
        show 0 ≤ (rowScatter N E D wf).start (ix2 e q') idx 1 + ((rowScatter N E D wf).window (ix2 e q') 1 : ℕ)
          ∧ (rowScatter N E D wf).start (ix2 e q') idx 1 + ((rowScatter N E D wf).window (ix2 e q') 1 : ℕ) < (D : ℤ)
        rw [rowScatter_start_one, rowScatter_window_one]
        have := q'.isLt
        omega

/-- THE ACCUMULATING ROW SCATTER AT (d, q): the operand's entry plus the sum, over the edges whose start word read
    signed is d, of update (e, q). The sum over the rank-2 update indices that land at (d, q) is split by
    coordinates; in the inner sum over features only q' = q survives. -/
theorem rowScatterAdd_apply {φ : FTy} (x : FVec Ideal ⟨2, ![N, D]⟩ φ) (upd : FVec Ideal ⟨2, ![E, D]⟩ φ) (d : Fin N) (q : Fin D) :
    Host.scatterAdd (F := Ideal) (rowScatter N E D wf) x idx upd (ix2 d q)
      = x (ix2 d q) + ∑ e ∈ Finset.univ.filter (fun e : Fin E => (idx (ix2 e 0)).toInt = (d.val : ℤ)), upd (ix2 e q) := by
  show Ideal.hostScatterAdd (rowScatter N E D wf) x idx upd (ix2 d q) = _
  unfold Ideal.hostScatterAdd
  congr 1
  rw [Finset.sum_filter, sum_idx2, Finset.sum_filter]
  refine Finset.sum_congr rfl fun e _ => ?_
  simp only [rowScatter_resultIdx_iff]
  by_cases hd : (idx (ix2 e 0)).toInt = (d.val : ℤ)
  · simp only [hd, true_and, if_true]
    rw [Finset.sum_ite_eq' Finset.univ q (fun q' => upd (ix2 e q'))]
    simp
  · simp only [hd, false_and, if_false]
    exact Finset.sum_const_zero

end Scatter

/-! ## Broadcasts read at an index -/

section Broadcasts
variable {α : Type}

/-- A scalar spread over any shape reads the scalar everywhere. -/
theorem bcastScalar_apply {t : Shape} (h : (⟨0, ![]⟩ : Shape).BroadcastsInDim t ![])
    (v : (⟨0, ![]⟩ : Shape).Idx → α) (j : t.Idx) : broadcastInDim t ![] h v j = v ix0 := by
  unfold broadcastInDim
  exact congrArg v (funext fun a => a.elim0)

/-- A vector as a column [E, 1], at (e, 0): the vector at e. -/
theorem bcastCol_apply {E : Nat} (h : (⟨1, ![E]⟩ : Shape).BroadcastsInDim ⟨2, ![E, 1]⟩ ![0])
    (v : (⟨1, ![E]⟩ : Shape).Idx → α) (e : Fin E) (z : Fin 1) :
    broadcastInDim ⟨2, ![E, 1]⟩ ![0] h v (ix2 e z) = v (ix1 e) := by
  refine broadcastInDim_apply _ h v _ (ix1 e) fun a => ?_
  match a with
  | ⟨0, _⟩ =>
    show e.val = if E = 1 then 0 else e.val
    have := e.isLt
    split <;> omega

/-- A column [E, 1] spread over D features, at (e, q): the column at (e, 0). -/
theorem bcastFeat_apply {E D : Nat} (h : (⟨2, ![E, 1]⟩ : Shape).BroadcastsInDim ⟨2, ![E, D]⟩ ![0, 1])
    (v : (⟨2, ![E, 1]⟩ : Shape).Idx → α) (e : Fin E) (q : Fin D) :
    broadcastInDim ⟨2, ![E, D]⟩ ![0, 1] h v (ix2 e q) = v (ix2 e 0) := by
  refine broadcastInDim_apply _ h v _ (ix2 e 0) fun a => ?_
  match a with
  | ⟨0, _⟩ =>
    show e.val = if E = 1 then 0 else e.val
    have := e.isLt
    split <;> omega
  | ⟨1, _⟩ =>
    show 0 = if 1 = 1 then 0 else q.val
    rfl

/-- A vector [D] as a row [1, D], at (0, q): the vector at q. -/
theorem bcastRow_apply {D : Nat} (h : (⟨1, ![D]⟩ : Shape).BroadcastsInDim ⟨2, ![1, D]⟩ ![1])
    (v : (⟨1, ![D]⟩ : Shape).Idx → α) (z : Fin 1) (q : Fin D) :
    broadcastInDim ⟨2, ![1, D]⟩ ![1] h v (ix2 z q) = v (ix1 q) := by
  refine broadcastInDim_apply _ h v _ (ix1 q) fun a => ?_
  match a with
  | ⟨0, _⟩ =>
    show q.val = if D = 1 then 0 else q.val
    have := q.isLt
    split <;> omega

/-- A row [1, D] spread over N rows, at (d, q): the row at (0, q). -/
theorem bcastRows_apply {N D : Nat} (h : (⟨2, ![1, D]⟩ : Shape).BroadcastsInDim ⟨2, ![N, D]⟩ ![0, 1])
    (v : (⟨2, ![1, D]⟩ : Shape).Idx → α) (d : Fin N) (q : Fin D) :
    broadcastInDim ⟨2, ![N, D]⟩ ![0, 1] h v (ix2 d q) = v (ix2 0 q) := by
  refine broadcastInDim_apply _ h v _ (ix2 0 q) fun a => ?_
  match a with
  | ⟨0, _⟩ =>
    show 0 = if 1 = 1 then 0 else d.val
    rfl
  | ⟨1, _⟩ =>
    show q.val = if D = 1 then 0 else q.val
    have := q.isLt
    split <;> omega

end Broadcasts

/-! ## The start word of a row lookup: a negative word counts from the end -/

/-- The select on "the word is negative" between the word plus the row count and the word itself. -/
theorem wrap_select (s n : BitVec 32) :
    Scalar.select (IntOp.cmpi .slt s 0#32) (IntOp.addi s n) s = if s.toInt < 0 then s + n else s := by
  by_cases h : s.toInt < 0
  · have hc : IntOp.cmpi .slt s 0#32 = 1#1 := IntOp.cmpi_slt.mpr (by simpa using h)
    rw [hc, select_one, if_pos h]
    rfl
  · have hc : ¬IntOp.cmpi .slt s 0#32 = 1#1 := fun hc => h (by simpa using IntOp.cmpi_slt.mp hc)
    rw [eq_zero_of_ne_one hc, select_zero, if_neg h]

/-! ## The rectifier read at an index -/

/-- The maximum with a zero scalar spread over the shape is the maximum with 0, entry by entry. -/
theorem reluOps_apply {t : Shape} (hz : (⟨0, ![]⟩ : Shape).BroadcastsInDim t ![]) (x : FVec Ideal t .f32) (i : t.Idx) :
    maximumf x (broadcastInDim t ![] hz (constant (F := Ideal) ⟨0, ![]⟩ .f32 0x00000000#32)) i = max (x i) 0 := by
  rw [maximumf_apply, bcastScalar_apply, constant_apply, Ideal.ofBits_zero_f32]

end Cert.ReferenceIdeal.Hand

end
-- ==== Proof.LibVecScatterAdd.lean ====
/-
  GENERAL LEMMA: the accumulating scatter of a VECTOR of updates [E] into a vector operand [N] at a column [E, 1] of
  start words (`segment_sum` / `.at[idx].add` of a rank-1 array), READ AT AN INDEX over the extended reals, for
  arbitrary extents N (entries) and E (updates).

  Update e lands at entry (the start word of e read signed and NOT clamped), or nowhere when that is no entry
  (`vecScatter_resultIdx_iff`); so entry d of the result is the operand's entry plus the sum, over the updates
  whose word read signed is d, of the update (`vecScatterAdd_apply`). With it the re-indexing of a sum over the
  indices of a rank-1 shape as a sum over its one coordinate (`sum_idx1`).
  Nothing here mentions a program: the dimension-number record is built from a well-formedness fact the caller has.
-/
import Idealize.ShloMosaic.PureOps.Ideal
import Idealize.ShloMosaic.PureOps.Contract
import Idealize.ShloMosaic.Lib.ValueIdx
import Mathlib.Algebra.BigOperators.Group.Finset.Basic
import Mathlib.Algebra.BigOperators.Fin

noncomputable section

open scoped BigOperators

namespace Cert.Hand.VecScatter

open Idealize.ShloMosaic Idealize.ShloMosaic.ValueIdx

/-- An index of a rank-1 shape is its one coordinate … -/
def idxEquiv1 {n : Nat} : (⟨1, ![n]⟩ : Shape).Idx ≃ Fin n where
  toFun i := i 0
  invFun a := ix1 a
  left_inv i := (eq_ix1 i).symm
  right_inv _ := rfl

/-- … so a sum over the indices is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of a scatter of a vector of updates [E] into a vector [N] at a column [E, 1] of start
    words: no window axis, the one operand axis inserted and indexed. -/
abbrev vecScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)
  (idx : IVec ⟨2, ![E, 1]⟩ w)

/-- The window of update e starts at the start word of e, read signed … -/
theorem vecScatter_start (e : Fin E) :
    (vecScatter N E wf).start (ix1 e) idx 0 = (idx (ix2 e 0)).toInt := by
  unfold ScatterDims.start
  rw [dif_pos (show (0 : Fin 1) ∈ (vecScatter N E wf).scatterDimsToOperandDims from List.mem_singleton.mpr rfl)]
  have hsi : (vecScatter N E wf).siIdx (ix1 e) ⟨List.idxOf (0 : Fin 1) (vecScatter N E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- … and its window coordinate is 0: the one operand axis is an inserted axis. -/
theorem vecScatter_window (e : Fin E) :
    (vecScatter N E wf).window (ix1 e) 0 = 0 := by
  unfold ScatterDims.window
  rw [dif_neg]
  show (0 : Fin 1) ∉ (List.finRange 1).filter (· ∉ [(0 : Fin 1)])
  decide

/-- Update e lands at entry d exactly when the start word of e, read signed, is d. -/
theorem vecScatter_resultIdx_iff (e : Fin E) (d : Fin N) :
    (vecScatter N E wf).resultIdx? (ix1 e) idx = some (ix1 d) ↔ (idx (ix2 e 0)).toInt = (d.val : ℤ) := by
  unfold ScatterDims.resultIdx?
  split
  · next h =>
    rw [Option.some.injEq]
    have h0 := h 0
    rw [vecScatter_start, vecScatter_window] at h0
    constructor
    · intro hf
      have e0 := congrArg (fun f => (f 0).val) hf
      simp only [vecScatter_start, vecScatter_window] at e0
      have : ((ix1 d : (⟨1, ![N]⟩ : Shape).Idx) 0).val = d.val := rfl
      omega
    · intro hd
      funext a
      refine Fin.ext ?_
      match a with
      | ⟨0, _⟩ =>
        show ((vecScatter N E wf).start (ix1 e) idx 0 + ((vecScatter N E wf).window (ix1 e) 0 : ℕ)).toNat = d.val
        rw [vecScatter_start, vecScatter_window]
        omega
  · next h =>
    constructor
    · intro hf
      exact absurd hf (by simp)
    · intro hd
      exfalso
      apply h
      intro a
      match a with
      | ⟨0, _⟩ =>
        show 0 ≤ (vecScatter N E wf).start (ix1 e) idx 0 + ((vecScatter N E wf).window (ix1 e) 0 : ℕ)
          ∧ (vecScatter N E wf).start (ix1 e) idx 0 + ((vecScatter N E wf).window (ix1 e) 0 : ℕ) < (N : ℤ)
        rw [vecScatter_start, vecScatter_window]
        have := d.isLt
        omega

/-- THE ACCUMULATING VECTOR SCATTER AT ENTRY d: the operand's entry plus the sum, over the updates whose start word
    read signed is d, of the update. -/
theorem vecScatterAdd_apply {φ : FTy} (x : FVec Ideal ⟨1, ![N]⟩ φ) (upd : FVec Ideal ⟨1, ![E]⟩ φ) (d : Fin N) :
    Host.scatterAdd (F := Ideal) (vecScatter N E wf) x idx upd (ix1 d)
      = x (ix1 d) + ∑ e ∈ Finset.univ.filter (fun e : Fin E => (idx (ix2 e 0)).toInt = (d.val : ℤ)), upd (ix1 e) := by
  show Ideal.hostScatterAdd (vecScatter N E wf) x idx upd (ix1 d) = _
  unfold Ideal.hostScatterAdd
  congr 1
  rw [Finset.sum_filter, sum_idx1, Finset.sum_filter]
  refine Finset.sum_congr rfl fun e _ => ?_
  simp only [vecScatter_resultIdx_iff]

end Cert.Hand.VecScatter

end
-- ==== Proof.KerRead.lean ====
/-
  The arrays the kernel's host program computes around its region, read at an index over the extended reals.

  The source and destination words are the two rows of the edge array. The count at a node is a zero plus a one per
  edge whose destination word, read signed, is the node; spread over the features it scales the node's features and the
  bias. The two weight factors are the transposed halves of W, the first with the second subtracted. The divisor is
  the larger of the count and 1.

  The one lookup: the source word of an edge is normalised (a negative word counts from the end), and the row is read
  where the normalised word lies in the rows 0 … 49999, a fill value elsewhere. When every source word s satisfies
  −50000 ≤ s < 50000 the normalised word always lies in the rows (for a negative s, s + 50000 does not wrap around),
  so the test "0 ≤ w and w ≤ 49999", combined by "and" over the one column of the column of start words from the
  value 1, is 1 at every edge, the fill value is never taken, and the lookup is x at the clamped normalised word.
  Summed per destination node that is the specification's sum of the source rows.
-/
import proofs.«431435_j60859686584363_3_alg».proof.Proof.KerDefs
import proofs.«431435_j60859686584363_3_alg».proof.Proof.Spec
import proofs.«431435_j60859686584363_3_alg».proof.Proof.LibRowGatherScatter
import proofs.«431435_j60859686584363_3_alg».proof.Proof.LibVecScatterAdd
import Idealize.ShloMosaic.Lib.Pipeline.Value
import Idealize.ShloMosaic.Lib.ValueIdx
import Idealize.ShloMosaic.Lib.IdealHost
import Idealize.ShloMosaic.Lib.Affine
import Idealize.ShloMosaic.Lib.ReduceAll
import Idealize.ShloMosaic.PureOps.Reduce
import Idealize.ShloMosaic.PureOps.Ideal.Laws

noncomputable section

open scoped BigOperators

namespace Cert.KernelIdeal.Hand

open Idealize.ShloMosaic Idealize.ShloMosaic.ValueIdx Cert.KernelIdeal Cert.KernelIdeal.Gen Cert.EdgeConv
  Cert.ReferenceIdeal.Hand Cert.Hand.VecScatter

/-! ## The words of an edge -/

/-- The first row of the edge array, reshaped to a vector, at e: the source word of e. -/
theorem srcVec_apply (ei : IVec S2x800000 32) (e : Fin 800000) : srcVec ei (ix1 e) = srcW ei e := by
  unfold srcVec srcW
  refine (shapeCast_apply _ shapeCasts_S1x800000_S800000 (ix1 e) (ix2 (0 : Fin 1) e) ?_).trans ?_
  · rewrite [Shape.rowMajor_val_two, Shape.rowMajor_val_one]
    show 0 * 800000 + e.val = e.val
    omega
  · refine extractStridedSlice_apply ![0, 0] ei slices_S2x800000_S1x800000_0_0 (ix2 (0 : Fin 1) e) (ix2 (0 : Fin 2) e)
      (fun a => ?_)
    match a with
    | ⟨0, _⟩ => rfl
    | ⟨1, _⟩ => show e.val = 0 + e.val; omega

/-- The second row of the edge array, reshaped to a vector, at e: the destination word of e. -/
theorem dstVec_apply (ei : IVec S2x800000 32) (e : Fin 800000) : dstVec ei (ix1 e) = dstW ei e := by
  unfold dstVec dstW
  refine (shapeCast_apply _ shapeCasts_S1x800000_S800000 (ix1 e) (ix2 (0 : Fin 1) e) ?_).trans ?_
  · rewrite [Shape.rowMajor_val_two, Shape.rowMajor_val_one]
    show 0 * 800000 + e.val = e.val
    omega
  · refine extractStridedSlice_apply ![1, 0] ei slices_S2x800000_S1x800000_1_0 (ix2 (0 : Fin 1) e) (ix2 (1 : Fin 2) e)
      (fun a => ?_)
    match a with
    | ⟨0, _⟩ => rfl
    | ⟨1, _⟩ => show e.val = 0 + e.val; omega

/-- A vector of words as a column, at (e, 0): the vector at e. -/
theorem colOf_apply (s : IVec S800000 32) (e : Fin 800000) : colOf s (ix2 e 0) = s (ix1 e) := by
  unfold colOf
  exact bcastCol_apply bcast_S800000_S800000x1_0 s e 0

/-- The normalised vector of words at e: the word at e, normalised. -/
theorem wrapVec_apply (s : IVec S800000 32) (e : Fin 800000) : wrapVec s (ix1 e) = wrapWord (s (ix1 e)) := by
  unfold wrapVec wrapWord
  exact wrap_select (s (ix1 e)) 50000#32

/-! ## The count, and what is spread over the features -/

/-- A per-node vector spread over the features, at (n, q): the vector at n. -/
theorem overFeatures_apply (v : FVec Ideal S50000 .f32) (n : Fin 50000) (q : Fin 64) :
    overFeatures (F := Ideal) v (ix2 n q) = v (ix1 n) := by
  unfold overFeatures
  rw [bcastFeat_apply bcast_S50000x1_S50000x64_0_1 _ n q]
  exact bcastCol_apply bcast_S50000_S50000x1_0 v n 0

/-- The count at n: a one per edge into n. -/
theorem cntOf_apply (ei : IVec S2x800000 32) (n : Fin 50000) : cntOf (F := Ideal) (dstVec ei) (ix1 n) = cnt ei n := by
  unfold cntOf
  show Host.scatterAdd (F := Ideal) (vecScatter 50000 800000 scatter_S50000_S800000x1_S800000_n_0_0_1_wf)
    (broadcastInDim S50000 ![] bcast_S_S50000 (constant (F := Ideal) S_ .f32 0x00000000#32)) (colOf (dstVec ei))
    (broadcastInDim S800000 ![] bcast_S_S800000 (constant (F := Ideal) S_ .f32 0x3F800000#32)) (ix1 n) = _
  rw [vecScatterAdd_apply, bcastScalar_apply, constant_apply, Ideal.ofBits_zero_f32, zero_add]
  unfold cnt inbound
  have hf : Finset.univ.filter (fun e : Fin 800000 => (colOf (dstVec ei) (ix2 e 0)).toInt = (n.val : ℤ))
      = Finset.univ.filter (fun e : Fin 800000 => (dstW ei e).toInt = (n.val : ℤ)) :=
    Finset.filter_congr fun e _ => by rw [colOf_apply, dstVec_apply]
  rw [hf]
  refine Finset.sum_congr rfl fun e _ => ?_
  rw [bcastScalar_apply, constant_apply]
  rfl

/-- The features scaled by the count, at (n, k). -/
theorem xcV_apply (x : FVec Ideal S50000x64 .f32) (ei : IVec S2x800000 32) (n : Fin 50000) (k : Fin 64) :
    xcV (F := Ideal) x ei (ix2 n k) = cnt ei n * x (ix2 n k) := by
  unfold xcV
  rw [truncf_apply, mulf_apply, overFeatures_apply, cntOf_apply]

/-- The bias scaled by the count, at (n, o). -/
theorem biasV_apply (ei : IVec S2x800000 32) (b : FVec Ideal S64 .f32) (n : Fin 50000) (o : Fin 64) :
    biasV (F := Ideal) ei b (ix2 n o) = cnt ei n * b (ix1 o) := by
  unfold biasV
  rw [mulf_apply, overFeatures_apply, cntOf_apply, bcastRows_apply bcast_S1x64_S50000x64_0_1 _ n o,
    bcastRow_apply bcast_S64_S1x64_1 b 0 o]

/-- The divisor at (n, o): the larger of the count at n and 1. -/
theorem divisorV_apply (ei : IVec S2x800000 32) (n : Fin 50000) (o : Fin 64) :
    divisorV (F := Ideal) ei (ix2 n o) = max (cnt ei n) one := by
  unfold divisorV
  rw [overFeatures_apply, maximumf_apply, cntOf_apply, bcastScalar_apply, constant_apply]
  rfl

/-! ## The two weight factors -/

/-- The first factor at (k, o): column k of the first half of W's row o, less column k of the second half. -/
theorem aV_apply (W : FVec Ideal S64x128 .f32) (k o : Fin 64) :
    aV (F := Ideal) W (ix2 k o) = W (ix2 o ⟨k.val, by omega⟩) - W (ix2 o ⟨64 + k.val, by omega⟩) := by
  unfold aV
  rw [truncf_apply]
  refine (transpose_apply [1, 0] _ transposes_S64x64_S64x64_1_0 (ix2 k o) (ix2 o k) (fun b => ?_)).trans ?_
  · match b with
    | ⟨0, _⟩ => rfl
    | ⟨1, _⟩ => rfl
  · rw [subf_apply]
    congr 1
    · refine extractStridedSlice_apply ![0, 0] W slices_S64x128_S64x64_0_0 (ix2 o k) _ (fun a => ?_)
      match a with
      | ⟨0, _⟩ => show o.val = 0 + o.val; omega
      | ⟨1, _⟩ => show k.val = 0 + k.val; omega
    · refine extractStridedSlice_apply ![0, 64] W slices_S64x128_S64x64_0_64 (ix2 o k) _ (fun a => ?_)
      match a with
      | ⟨0, _⟩ => show o.val = 0 + o.val; omega
      | ⟨1, _⟩ => rfl

/-- The second factor at (k, o): column k of the second half of W's row o. -/
theorem bV_apply (W : FVec Ideal S64x128 .f32) (k o : Fin 64) :
    bV (F := Ideal) W (ix2 k o) = W (ix2 o ⟨64 + k.val, by omega⟩) := by
  unfold bV
  rw [truncf_apply]
  refine (transpose_apply [1, 0] _ transposes_S64x64_S64x64_1_0 (ix2 k o) (ix2 o k) (fun b => ?_)).trans ?_
  · match b with
    | ⟨0, _⟩ => rfl
    | ⟨1, _⟩ => rfl
  · refine extractStridedSlice_apply ![0, 64] W slices_S64x128_S64x64_0_64 (ix2 o k) _ (fun a => ?_)
    match a with
    | ⟨0, _⟩ => show o.val = 0 + o.val; omega
    | ⟨1, _⟩ => rfl

/-! ## The source rows, looked up and summed per destination -/

/-- A normalised word lies in the rows when the word s satisfies −50000 ≤ s < 50000: a negative s becomes
    s + 50000 without wrapping around, any other s is unchanged. -/
theorem wrapWord_range (s : BitVec 32) (h : (-50000 : ℤ) ≤ s.toInt ∧ s.toInt < 50000) :
    0 ≤ (wrapWord s).toInt ∧ (wrapWord s).toInt ≤ 49999 := by
  unfold wrapWord
  by_cases hs : s.toInt < 0
  · rw [if_pos hs, BitVec.toInt_add, show (50000#32 : BitVec 32).toInt = 50000 from by decide,
      Int.bmod_eq_of_le_mul_two (by omega) (by omega)]
    omega
  · rw [if_neg hs]
    omega

/-- A left fold by "and" from 1 over entries that are all 1 is 1. -/
theorem foldl_andi_of_all_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi (1#1 : BitVec 1) 1#1 = 1#1 from by decide]
    exact foldl_andi_of_all_one f hf l

/-- When every start word of the column lies in the rows, the row test is 1 at every edge. -/
theorem inRows_apply (col : IVec S800000x1 32)
    (hall : ∀ i : S800000x1.Idx, 0 ≤ (col i).toInt ∧ (col i).toInt ≤ 49999) (e : Fin 800000) :
    inRows col (ix1 e) = 1#1 := by
  unfold inRows
  rw [Host.reduce_eq_foldl]
  refine foldl_andi_of_all_one _ (fun i => ?_) _
  show IntOp.andi (IntOp.cmpi .sge (col i) 0#32) (IntOp.cmpi .sle (col i) 49999#32) = 1#1
  rw [IntOp.andi_eq_one, IntOp.cmpi_sge, IntOp.cmpi_sle, show (0#32 : BitVec 32).toInt = 0 from by decide,
    show (49999#32 : BitVec 32).toInt = 49999 from by decide]
  exact hall i

/-- The start word of the source lookup, of e: the source word, normalised. -/
theorem take_start (ei : IVec S2x800000 32) (e : Fin 800000) :
    colOf (wrapVec (srcVec ei)) (ix2 e 0) = wrapWord (srcW ei e) := by
  rw [colOf_apply, wrapVec_apply, srcVec_apply]

/-- The looked-up source rows at (e, k), every source word s with −50000 ≤ s < 50000: x at the row of the source
    word of e. -/
theorem takeOf_apply (x : FVec Ideal S50000x64 .f32) (ei : IVec S2x800000 32)
    (hsrc : ∀ e : Fin 800000, (-50000 : ℤ) ≤ (ei (ix2 0 e)).toInt ∧ (ei (ix2 0 e)).toInt < 50000)
    (e : Fin 800000) (k : Fin 64) :
    takeOf (F := Ideal) x (srcVec ei) (ix2 e k) = x (ix2 (rowOf (srcW ei e)) k) := by
  unfold takeOf
  rw [select_apply]
  have hall : ∀ i : S800000x1.Idx, 0 ≤ (colOf (wrapVec (srcVec ei)) i).toInt
      ∧ (colOf (wrapVec (srcVec ei)) i).toInt ≤ 49999 := fun i => by
    obtain ⟨e', z, rfl⟩ : ∃ (e' : Fin 800000) (z : Fin 1), i = ix2 e' z := ⟨i 0, i 1, eq_ix2 i⟩
    obtain rfl : z = 0 := Subsingleton.elim _ _
    rw [take_start]
    exact wrapWord_range _ (hsrc e')
  have hm : broadcastInDim S800000x64 ![0] bcast_S800000_S800000x64_0 (inRows (colOf (wrapVec (srcVec ei)))) (ix2 e k)
      = 1#1 := by
    refine (broadcastInDim_apply _ bcast_S800000_S800000x64_0 _ (ix2 e k) (ix1 e) (fun a => ?_)).trans
      (inRows_apply _ hall e)
    match a with
    | ⟨0, _⟩ => show e.val = if (800000 : Nat) = 1 then 0 else e.val; rw [if_neg (by decide)]
  rw [hm, select_one]
  show Host.gather (rowGather 50000 800000 64 gather_S50000x64_S800000x1_S800000x64_1_0_n_n_0_1_164_wf) x
    (colOf (wrapVec (srcVec ei))) (ix2 e k) = _
  rw [rowGather_apply_of_eq (by decide) _ x (colOf (wrapVec (srcVec ei))) e k _ (take_start ei e)]
  rfl

/-- The source rows summed per destination node, at (n, k), every source word s with −50000 ≤ s < 50000. -/
theorem sV_apply (x : FVec Ideal S50000x64 .f32) (ei : IVec S2x800000 32)
    (hsrc : ∀ e : Fin 800000, (-50000 : ℤ) ≤ (ei (ix2 0 e)).toInt ∧ (ei (ix2 0 e)).toInt < 50000)
    (n : Fin 50000) (k : Fin 64) :
    sV (F := Ideal) x ei (ix2 n k) = srcSum x ei n k := by
  unfold sV
  rw [truncf_apply]
  unfold sumOf
  show Host.scatterAdd (F := Ideal) (rowScatter 50000 800000 64 scatter_S50000x64_S800000x1_S800000x64_1_0_0_1_wf)
    (broadcastInDim S50000x64 ![] bcast_S_S50000x64 (constant (F := Ideal) S_ .f32 0x00000000#32)) (colOf (dstVec ei))
    (takeOf (F := Ideal) x (srcVec ei)) (ix2 n k) = _
  rw [rowScatterAdd_apply, bcastScalar_apply, constant_apply, Ideal.ofBits_zero_f32, zero_add]
  unfold srcSum inbound
  have hf : Finset.univ.filter (fun e : Fin 800000 => (colOf (dstVec ei) (ix2 e 0)).toInt = (n.val : ℤ))
      = Finset.univ.filter (fun e : Fin 800000 => (dstW ei e).toInt = (n.val : ℤ)) :=
    Finset.filter_congr fun e _ => by rw [colOf_apply, dstVec_apply]
  rw [hf]
  exact Finset.sum_congr rfl fun e _ => takeOf_apply x ei hsrc e k

end Cert.KernelIdeal.Hand

end
-- ==== Proof.Algebra.lean ====
/-
  The two arrangements of the aggregated messages agree on finite inputs.

  For an edge e into node n the destination word, read signed, is the natural number n, hence not negative: index
  normalisation leaves the word alone, and the clamp into the 50000 rows does nothing because n is already a row. So
  every edge into n reads the destination row n (`rowOf_of_inbound`).

  With T the set of edges into n and c the number of its elements, split W = [W₁ | W₂] into its two 64-column halves.
  The message of an edge e in T at output feature o is
      Σ_{k<64} x(n,k)·W₁(o,k) + Σ_{k<64} (x(src e,k) − x(n,k))·W₂(o,k) + b(o),
  and adding these over T gives
      c·Σ_k x(n,k)·(W₁(o,k) − W₂(o,k)) + Σ_k (Σ_{e∈T} x(src e,k))·W₂(o,k) + c·b(o).
  This uses distributivity and the exchange of two finite sums, which are laws of the real numbers but fail at the
  infinities of the extended reals. The inputs are finite, so both sides are images of real expressions: the identity
  is proved in the reals and carried over by the inclusion of the reals, which commutes with +, −, · and finite sums.
-/
import proofs.«431435_j60859686584363_3_alg».proof.Proof.Spec
import Mathlib.Data.EReal.Basic
import Mathlib.Data.EReal.Operations
import Mathlib.Algebra.BigOperators.Fin
import Mathlib.Algebra.BigOperators.Ring.Finset
import Mathlib.Tactic.Ring
import Mathlib.Tactic.LinearCombination

noncomputable section

open scoped BigOperators

namespace Cert.EdgeConv

open Idealize.ShloMosaic Idealize.ShloMosaic.ValueIdx

/-- An edge into `n` reads row `n` on its destination side: its destination word is the number `n` itself, which is
    not negative (so normalisation keeps it) and below 50000 (so the clamp keeps it). -/
theorem rowOf_of_inbound (ei : SE.Idx → BitVec 32) (n : Fin 50000) (e : Fin 800000) (he : e ∈ inbound ei n) :
    rowOf (dstW ei e) = n := by
  have h : (dstW ei e).toInt = (n.val : ℤ) := by
    have := he
    simp only [inbound, Finset.mem_filter, Finset.mem_univ, true_and] at this
    exact this
  have hw : wrapWord (dstW ei e) = dstW ei e := by
    unfold wrapWord
    rw [if_neg]
    omega
  apply Fin.ext
  simp only [rowOf, hw, h]
  have := n.isLt
  omega

/-- The inclusion of the reals in the extended reals commutes with finite sums (it is additive and sends 0 to 0). -/
theorem coe_finset_sum {ι : Type} (s : Finset ι) (f : ι → ℝ) :
    ((∑ i ∈ s, f i : ℝ) : EReal) = ∑ i ∈ s, (f i : EReal) :=
  map_sum (⟨⟨Real.toEReal, EReal.coe_zero⟩, EReal.coe_add⟩ : ℝ →+ EReal) f s

/-- A sum over 128 columns is the sum over the first 64 plus the sum over the last 64. -/
theorem sum_fin128 {M : Type} [AddCommMonoid M] (f : Fin 128 → M) :
    ∑ k : Fin 128, f k = (∑ k : Fin 64, f ⟨k.val, by omega⟩) + ∑ k : Fin 64, f ⟨64 + k.val, by omega⟩ :=
  Fin.sum_univ_add (a := 64) (b := 64) f

/-- A column in the first half of the message input is the destination row's feature. -/
theorem msgIn_lo (x : SX.Idx → EReal) (ei : SE.Idx → BitVec 32) (e : Fin 800000) (k : Fin 64) :
    msgIn x ei e ⟨k.val, by omega⟩ = x (ix2 (rowOf (dstW ei e)) k) := by
  unfold msgIn
  rw [dif_pos (show ((⟨k.val, by omega⟩ : Fin 128).val < 64) from k.isLt)]

/-- A column in the second half of the message input is source feature minus destination feature. -/
theorem msgIn_hi (x : SX.Idx → EReal) (ei : SE.Idx → BitVec 32) (e : Fin 800000) (k : Fin 64) :
    msgIn x ei e ⟨64 + k.val, by omega⟩
      = x (ix2 (rowOf (srcW ei e)) k) - x (ix2 (rowOf (dstW ei e)) k) := by
  unfold msgIn
  have hk : (⟨64 + k.val - 64, by omega⟩ : Fin 64) = k := Fin.ext (by simp)
  rw [dif_neg (show ¬ ((⟨64 + k.val, by omega⟩ : Fin 128).val < 64) from by simp)]
  simp only [hk]

/-- The rearrangement in the reals. `xn` is the row of the node, `xs e` the source row of edge `e`, `W₁` and `W₂` the two
    halves of the weight row of the output feature, `β` its bias. By induction on the edge set: a new edge adds the same
    amount to both sides. -/
theorem real_rearrange {ι : Type} (T : Finset ι) (xn : Fin 64 → ℝ) (xs : ι → Fin 64 → ℝ) (W₁ W₂ : Fin 64 → ℝ)
    (β : ℝ) :
    ((∑ k : Fin 64, ((∑ _e ∈ T, (1 : ℝ)) * xn k) * (W₁ k - W₂ k)) + ∑ k : Fin 64, (∑ e ∈ T, xs e k) * W₂ k)
        + (∑ _e ∈ T, (1 : ℝ)) * β
      = ∑ e ∈ T, (((∑ k : Fin 64, xn k * W₁ k) + ∑ k : Fin 64, (xs e k - xn k) * W₂ k) + β) := by
  classical
  induction T using Finset.induction_on with
  | empty => simp
  | insert a s ha ih =>
    simp only [Finset.sum_insert ha, add_mul, one_mul, sub_mul, mul_sub, Finset.sum_add_distrib,
      Finset.sum_sub_distrib] at ih ⊢
    linear_combination ih

/-- The rearranged total on finite inputs is the image of a real number. -/
theorem kerSum_coe (xr : SX.Idx → ℝ) (ei : SE.Idx → BitVec 32) (Wr : SW.Idx → ℝ) (br : SB.Idx → ℝ)
    (n : Fin 50000) (o : Fin 64) :
    kerSum (fun i => (xr i : EReal)) ei (fun i => (Wr i : EReal)) (fun i => (br i : EReal)) n o
      = (((((∑ k : Fin 64, ((∑ _e ∈ inbound ei n, (1 : ℝ)) * xr (ix2 n k))
                * (Wr (ix2 o ⟨k.val, by omega⟩) - Wr (ix2 o ⟨64 + k.val, by omega⟩)))
            + ∑ k : Fin 64, (∑ e ∈ inbound ei n, xr (ix2 (rowOf (srcW ei e)) k)) * Wr (ix2 o ⟨64 + k.val, by omega⟩))
          + (∑ _e ∈ inbound ei n, (1 : ℝ)) * br (ix1 o)) : ℝ) : EReal) := by
  simp only [kerSum, cnt, srcSum, one_eq, coe_finset_sum, EReal.coe_add, EReal.coe_mul, EReal.coe_sub, EReal.coe_one]

/-- The edge-by-edge total on finite inputs is the image of a real number, with every destination row read as row
    `n`. -/
theorem refSum_coe (xr : SX.Idx → ℝ) (ei : SE.Idx → BitVec 32) (Wr : SW.Idx → ℝ) (br : SB.Idx → ℝ)
    (n : Fin 50000) (o : Fin 64) :
    refSum (fun i => (xr i : EReal)) ei (fun i => (Wr i : EReal)) (fun i => (br i : EReal)) n o
      = ((∑ e ∈ inbound ei n,
            (((∑ k : Fin 64, xr (ix2 n k) * Wr (ix2 o ⟨k.val, by omega⟩))
                + ∑ k : Fin 64, (xr (ix2 (rowOf (srcW ei e)) k) - xr (ix2 n k)) * Wr (ix2 o ⟨64 + k.val, by omega⟩))
              + br (ix1 o)) : ℝ) : EReal) := by
  rw [coe_finset_sum]
  unfold refSum
  refine Finset.sum_congr rfl fun e he => ?_
  rw [sum_fin128]
  simp only [msgIn_lo, msgIn_hi, rowOf_of_inbound ei n e he, coe_finset_sum, EReal.coe_add, EReal.coe_mul,
    EReal.coe_sub]

/-- On finite inputs the rearranged total is the edge-by-edge total. -/
theorem kerSum_eq_refSum (x : SX.Idx → EReal) (ei : SE.Idx → BitVec 32) (W : SW.Idx → EReal) (b : SB.Idx → EReal)
    (hx : ∀ i, ∃ r : ℝ, x i = (r : EReal)) (hW : ∀ i, ∃ r : ℝ, W i = (r : EReal))
    (hb : ∀ i, ∃ r : ℝ, b i = (r : EReal)) (n : Fin 50000) (o : Fin 64) :
    kerSum x ei W b n o = refSum x ei W b n o := by
  choose xr hxr using hx
  choose Wr hWr using hW
  choose br hbr using hb
  obtain rfl : x = fun i => (xr i : EReal) := funext hxr
  obtain rfl : W = fun i => (Wr i : EReal) := funext hWr
  obtain rfl : b = fun i => (br i : EReal) := funext hbr
  rw [kerSum_coe, refSum_coe]
  exact congrArg Real.toEReal
    (real_rearrange (inbound ei n) (fun k => xr (ix2 n k)) (fun e k => xr (ix2 (rowOf (srcW ei e)) k))
      (fun k => Wr (ix2 o ⟨k.val, by omega⟩)) (fun k => Wr (ix2 o ⟨64 + k.val, by omega⟩)) (br (ix1 o)))

end Cert.EdgeConv

end
-- ==== Proof.KerOut.lean ====
/-
  The kernel program's result is the edge-convolution layer's output, on finite inputs with source words in range.

  The region's array at (n, o) is Σ_k (count n · x(n,k)) · (W(o,k) − W(o,64+k)) + Σ_k (Σ_{e → n} x(src e, k)) · W(o,64+k)
  + count n · b(o): the arrangement of the aggregated messages with the linear map pushed through the aggregation. On
  finite inputs that is the edge-by-edge total, and both programs divide by the larger of the count and 1.
-/
import proofs.«431435_j60859686584363_3_alg».proof.Proof.KerValue
import proofs.«431435_j60859686584363_3_alg».proof.Proof.KerRead
import proofs.«431435_j60859686584363_3_alg».proof.Proof.Algebra

noncomputable section

open scoped BigOperators
open Idealize.ShloMosaic Idealize.ShloMosaic.ValueIdx

namespace Cert.KernelIdeal.Hand

open Cert.KernelIdeal Cert.KernelIdeal.Gen Cert.EdgeConv

/-- The host's quotient of two arrays, at an index: the quotient of the entries. -/
theorem hostDivf_apply {s : Shape} (A B : FVec Ideal s .f32) (i : s.Idx) :
    Host.divf (F := Ideal) A B i = Ideal.div (A i) (B i) := rfl

/-- The region's array of the named terms at (n, o) is the rearranged total. -/
theorem raw_apply (x : FVec Ideal S50000x64 .f32) (ei : IVec S2x800000 32) (W : FVec Ideal S64x128 .f32) (b : FVec Ideal S64 .f32)
    (hsrc : ∀ e : Fin 800000, (-50000 : ℤ) ≤ (ei (ix2 0 e)).toInt ∧ (ei (ix2 0 e)).toInt < 50000) (n : Fin 50000) (o : Fin 64) :
    rawOf (xcV (F := Ideal) x ei) (sV (F := Ideal) x ei) (biasV (F := Ideal) ei b) (aV (F := Ideal) W) (bV (F := Ideal) W) (ix2 n o)
      = kerSum x ei W b n o := by
  rw [rawOf_ix2]
  simp only [xcV_apply, sV_apply x ei hsrc, biasV_apply, aV_apply, bV_apply]
  rfl

/-- The quotient the kernel program ends with is the layer's output array. -/
theorem quotient_eq (x : FVec Ideal S50000x64 .f32) (ei : IVec S2x800000 32) (W : FVec Ideal S64x128 .f32) (b : FVec Ideal S64 .f32)
    (hx : ∀ i, ∃ r : ℝ, x i = (r : EReal)) (hW : ∀ i, ∃ r : ℝ, W i = (r : EReal)) (hb : ∀ i, ∃ r : ℝ, b i = (r : EReal))
    (hsrc : ∀ e : Fin 800000, (-50000 : ℤ) ≤ (ei (ix2 0 e)).toInt ∧ (ei (ix2 0 e)).toInt < 50000) :
    Host.divf (F := Ideal)
        (rawOf (xcV (F := Ideal) x ei) (sV (F := Ideal) x ei) (biasV (F := Ideal) ei b) (aV (F := Ideal) W) (bV (F := Ideal) W))
        (divisorV (F := Ideal) ei)
      = Cert.EdgeConv.out x ei W b := by
  funext i
  obtain ⟨n, o, rfl⟩ : ∃ (n : Fin 50000) (o : Fin 64), i = ix2 n o := ⟨i 0, i 1, eq_ix2 i⟩
  rw [out_ix2]
  rw [hostDivf_apply, raw_apply x ei W b hsrc, divisorV_apply, kerSum_eq_refSum x ei W b hx hW hb]
  rfl

end Cert.KernelIdeal.Hand

end
-- ==== Proof.RefValue.lean ====
/-
  The reference program's result, read at an index, is the edge-convolution layer of the specification.

  The reference computes, per edge e, the row of x at the source word and the row at the destination word (each word
  first normalised: a negative word counts from the end; then read signed and clamped into the rows), joins the
  destination row with the difference "source minus destination" into 128 columns, applies W and adds b; it then adds
  the messages into the rows named by the destination words (read signed, not clamped), counts the edges per row the
  same way, and divides the totals by the larger of the count and 1.

  Each stage is read at explicit coordinates. The words: the reshaped slices of the edge array are its two rows; the
  select "word < 0 ? word + 50000 : word" is the normalisation. The two lookups are the table at the clamped word.
  The joined array is the destination row on the first 64 columns and the difference on the last 64, which is the
  specification's message input. The product with the transposed weights is the sum over the 128 columns. The two
  accumulations are a zero plus the sum over the edges whose destination word is the row. The quotient is taken entry
  by entry.
-/
import proofs.«431435_j60859686584363_3_alg».proof.Proof.Gen.ReferenceIdeal.Read
import proofs.«431435_j60859686584363_3_alg».proof.Proof.Spec
import proofs.«431435_j60859686584363_3_alg».proof.Proof.LibRowGatherScatter
import proofs.«431435_j60859686584363_3_alg».proof.Proof.LibVecScatterAdd
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.Read Cert.ReferenceIdeal.Hand Cert.Hand.VecScatter Idealize.ShloMosaic.ValueIdx Cert.EdgeConv

/-! ## The words of an edge -/

/-- The first row of the edge array, reshaped to a vector, at e: the source word of e. -/
theorem src_word (x1 : (⟨S2x800000, .i32⟩ : BufTy).Contents (Elt Ideal)) (e : Fin 800000) :
    val_main_v1 (F := Ideal) x1 (ix1 e) = srcW x1 e := by
  rw [val_main_v1_apply, val_main_v0_apply]
  unfold srcW
  refine congrArg x1 (funext fun a => Fin.ext ?_)
  match a with
  | ⟨0, _⟩ => rfl
  | ⟨1, _⟩ => exact Nat.mod_eq_of_lt e.isLt

/-- The second row of the edge array, reshaped to a vector, at e: the destination word of e. -/
theorem dst_word (x1 : (⟨S2x800000, .i32⟩ : BufTy).Contents (Elt Ideal)) (e : Fin 800000) :
    val_main_v3 (F := Ideal) x1 (ix1 e) = dstW x1 e := by
  rw [val_main_v3_apply, val_main_v2_apply]
  unfold dstW
  refine congrArg x1 (funext fun a => Fin.ext ?_)
  match a with
  | ⟨0, _⟩ => rfl
  | ⟨1, _⟩ => exact Nat.mod_eq_of_lt e.isLt

/-- The source lookup's start word of e: the source word, normalised. -/
theorem src_start (x1 : (⟨S2x800000, .i32⟩ : BufTy).Contents (Elt Ideal)) (e : Fin 800000) :
    val_main_v9 (F := Ideal) x1 (ix2 e 0) = wrapWord (srcW x1 e) := by
  rw [val_main_v9_apply]
  have hi : idx_main_v9 (ix2 e (0 : Fin 1)) = ix1 e := funext fun a => Fin.ext (by match a with | ⟨0, _⟩ => rfl)
  rw [hi, val_main_v8_apply, val_main_v5_apply, val_main_v7_apply, val_main_v4_apply, val_main_v6_apply,
    val_main_c_apply, val_main_c_0_apply, src_word]
  exact wrap_select _ _

/-- The destination lookup's start word of e: the destination word, normalised. -/
theorem dst_start (x1 : (⟨S2x800000, .i32⟩ : BufTy).Contents (Elt Ideal)) (e : Fin 800000) :
    val_main_v16 (F := Ideal) x1 (ix2 e 0) = wrapWord (dstW x1 e) := by
  rw [val_main_v16_apply]
  have hi : idx_main_v16 (ix2 e (0 : Fin 1)) = ix1 e := funext fun a => Fin.ext (by match a with | ⟨0, _⟩ => rfl)
  rw [hi, val_main_v15_apply, val_main_v12_apply, val_main_v14_apply, val_main_v11_apply, val_main_v13_apply,
    val_main_c_1_apply, val_main_c_2_apply, dst_word]
  exact wrap_select _ _

/-! ## The two row lookups -/

/-- The source lookup at (e, q): x at the row of the source word of e. -/
theorem src_rows (x0 : (⟨S50000x64, .f32⟩ : BufTy).Contents (Elt Ideal)) (x1 : (⟨S2x800000, .i32⟩ : BufTy).Contents (Elt Ideal))
    (e : Fin 800000) (q : Fin 64) :
    val_main_v10 (F := Ideal) x0 x1 (ix2 e q) = x0 (ix2 (rowOf (srcW x1 e)) q) := by
  unfold val_main_v10
  show Host.gather (rowGather 50000 800000 64 gather_S50000x64_S800000x1_S800000x64_1_0_n_n_0_1_164_wf) x0
    (val_main_v9 (F := Ideal) x1) (ix2 e q) = _
  rw [rowGather_apply_of_eq (by decide) _ x0 (val_main_v9 (F := Ideal) x1) e q _ (src_start x1 e)]
  rfl

/-- The destination lookup at (e, q): x at the row of the destination word of e. -/
theorem dst_rows (x0 : (⟨S50000x64, .f32⟩ : BufTy).Contents (Elt Ideal)) (x1 : (⟨S2x800000, .i32⟩ : BufTy).Contents (Elt Ideal))
    (e : Fin 800000) (q : Fin 64) :
    val_main_v17 (F := Ideal) x0 x1 (ix2 e q) = x0 (ix2 (rowOf (dstW x1 e)) q) := by
  unfold val_main_v17
  show Host.gather (rowGather 50000 800000 64 gather_S50000x64_S800000x1_S800000x64_1_0_n_n_0_1_164_wf) x0
    (val_main_v16 (F := Ideal) x1) (ix2 e q) = _
  rw [rowGather_apply_of_eq (by decide) _ x0 (val_main_v16 (F := Ideal) x1) e q _ (dst_start x1 e)]
  rfl

/-! ## The joined message input -/

/-- The joined array at (e, k): the specification's message input. -/
theorem joined (x0 : (⟨S50000x64, .f32⟩ : BufTy).Contents (Elt Ideal)) (x1 : (⟨S2x800000, .i32⟩ : BufTy).Contents (Elt Ideal))
    (e : Fin 800000) (k : Fin 128) :
    val_main_v19 (F := Ideal) x0 x1 (ix2 e k) = msgIn x0 x1 e k := by
  unfold val_main_v19 msgIn
  by_cases h : k.val < 64
  · rw [dif_pos h]
    refine (concatenate_pair_apply_left (t := S800000x128) (s₁ := S800000x64) (s₂ := S800000x64) 1
      (val_main_v17 (F := Ideal) x0 x1) (val_main_v18 (F := Ideal) x0 x1)
      concatenates_S800000x64_S800000x64_S800000x128_d1 (ix2 e k) rfl (ix2 e ⟨k.val, h⟩) (fun b => ?_)).trans ?_
    · match b with
      | ⟨0, _⟩ => rfl
      | ⟨1, _⟩ => rfl
    · exact dst_rows x0 x1 e ⟨k.val, h⟩
  · rw [dif_neg h]
    have hk : k.val - 64 < 64 := by have := k.isLt; omega
    refine (concatenate_pair_apply_right (t := S800000x128) (s₁ := S800000x64) (s₂ := S800000x64) 1
      (val_main_v17 (F := Ideal) x0 x1) (val_main_v18 (F := Ideal) x0 x1)
      concatenates_S800000x64_S800000x64_S800000x128_d1 (ix2 e k) rfl rfl (ix2 e ⟨k.val - 64, hk⟩) (fun b hb => ?_) ?_).trans ?_
    · match b with
      | ⟨0, _⟩ => rfl
      | ⟨1, _⟩ => exact absurd rfl hb
    · show (k.val - 64) + 64 = k.val
      omega
    · rw [val_main_v18_apply, src_rows, dst_rows]
      rfl

/-! ## The message of an edge -/

/-- The message of edge e at output feature o: the message input times the weights' row o, plus the bias. -/
theorem message (x0 : (⟨S50000x64, .f32⟩ : BufTy).Contents (Elt Ideal)) (x1 : (⟨S2x800000, .i32⟩ : BufTy).Contents (Elt Ideal))
    (x2 : (⟨S64x128, .f32⟩ : BufTy).Contents (Elt Ideal)) (x3 : (⟨S64, .f32⟩ : BufTy).Contents (Elt Ideal))
    (e : Fin 800000) (o : Fin 64) :
    val_main_v24 (F := Ideal) x0 x1 x2 x3 (ix2 e o)
      = (∑ k : Fin 128, msgIn x0 x1 e k * x2 (ix2 o k)) + x3 (ix1 o) := by
  rw [val_main_v24_apply, val_main_v21_apply, val_main_v23_apply, val_main_v22_apply]
  have hb : idx_main_v22 (idx_main_v23 (ix2 e o)) = ix1 o :=
    funext fun a => Fin.ext (by match a with | ⟨0, _⟩ => rfl)
  rw [hb]
  show (∑ k : Fin 128, _) + x3 (ix1 o) = _
  refine congrArg (· + x3 (ix1 o)) (Finset.sum_congr rfl fun k _ => ?_)
  have hl : lidx_main_v21 (ix2 e o) k = ix2 e k :=
    funext fun a => Fin.ext (by match a with | ⟨0, _⟩ => rfl | ⟨1, _⟩ => rfl)
  have hr : idx_main_v20 (ridx_main_v21 (ix2 e o) k) = ix2 o k :=
    funext fun a => Fin.ext (by match a with | ⟨0, _⟩ => rfl | ⟨1, _⟩ => rfl)
  rw [hl, joined, val_main_v20_apply, hr]

/-! ## The two accumulations -/

/-- The start word of the accumulation of the messages, of e: the destination word. -/
theorem sum_start (x1 : (⟨S2x800000, .i32⟩ : BufTy).Contents (Elt Ideal)) (e : Fin 800000) :
    val_main_v26 (F := Ideal) x1 (ix2 e 0) = dstW x1 e := by
  rw [val_main_v26_apply]
  have hi : idx_main_v26 (ix2 e (0 : Fin 1)) = ix1 e := funext fun a => Fin.ext (by match a with | ⟨0, _⟩ => rfl)
  rw [hi, dst_word]

/-- The start word of the count, of e: the destination word. -/
theorem cnt_start (x1 : (⟨S2x800000, .i32⟩ : BufTy).Contents (Elt Ideal)) (e : Fin 800000) :
    val_main_v30 (F := Ideal) x1 (ix2 e 0) = dstW x1 e := by
  rw [val_main_v30_apply]
  have hi : idx_main_v30 (ix2 e (0 : Fin 1)) = ix1 e := funext fun a => Fin.ext (by match a with | ⟨0, _⟩ => rfl)
  rw [hi, dst_word]

/-- The accumulated messages at (n, o): the specification's total, added edge by edge. -/
theorem total (x0 : (⟨S50000x64, .f32⟩ : BufTy).Contents (Elt Ideal)) (x1 : (⟨S2x800000, .i32⟩ : BufTy).Contents (Elt Ideal))
    (x2 : (⟨S64x128, .f32⟩ : BufTy).Contents (Elt Ideal)) (x3 : (⟨S64, .f32⟩ : BufTy).Contents (Elt Ideal))
    (n : Fin 50000) (o : Fin 64) :
    val_main_v27 (F := Ideal) x0 x1 x2 x3 (ix2 n o) = refSum x0 x1 x2 x3 n o := by
  unfold val_main_v27
  show Host.scatterAdd (F := Ideal) (rowScatter 50000 800000 64 scatter_S50000x64_S800000x1_S800000x64_1_0_0_1_wf)
    (val_main_v25 (F := Ideal)) (val_main_v26 (F := Ideal) x1) (val_main_v24 (F := Ideal) x0 x1 x2 x3) (ix2 n o) = _
  rw [rowScatterAdd_apply, val_main_v25_apply, val_main_cst_apply]
  show Ideal.ofBits .f32 0x00000000#32 + _ = _
  rw [Ideal.ofBits_zero_f32, zero_add]
  unfold refSum inbound
  have hf : Finset.univ.filter (fun e : Fin 800000 => (val_main_v26 (F := Ideal) x1 (ix2 e 0)).toInt = (n.val : ℤ))
      = Finset.univ.filter (fun e : Fin 800000 => (dstW x1 e).toInt = (n.val : ℤ)) :=
    Finset.filter_congr fun e _ => by rw [sum_start]
  rw [hf]
  exact Finset.sum_congr rfl fun e _ => message x0 x1 x2 x3 e o

/-- The count at n: a one per edge into n. -/
theorem count (x1 : (⟨S2x800000, .i32⟩ : BufTy).Contents (Elt Ideal)) (n : Fin 50000) :
    val_main_v31 (F := Ideal) x1 (ix1 n) = cnt x1 n := by
  unfold val_main_v31
  show Host.scatterAdd (F := Ideal) (vecScatter 50000 800000 scatter_S50000_S800000x1_S800000_n_0_0_1_wf)
    (val_main_v29 (F := Ideal)) (val_main_v30 (F := Ideal) x1) (val_main_v28 (F := Ideal)) (ix1 n) = _
  rw [vecScatterAdd_apply, val_main_v29_apply, val_main_cst_4_apply]
  show Ideal.ofBits .f32 0x00000000#32 + _ = _
  rw [Ideal.ofBits_zero_f32, zero_add]
  unfold cnt inbound
  have hf : Finset.univ.filter (fun e : Fin 800000 => (val_main_v30 (F := Ideal) x1 (ix2 e 0)).toInt = (n.val : ℤ))
      = Finset.univ.filter (fun e : Fin 800000 => (dstW x1 e).toInt = (n.val : ℤ)) :=
    Finset.filter_congr fun e _ => by rw [cnt_start]
  rw [hf]
  refine Finset.sum_congr rfl fun e _ => ?_
  rw [val_main_v28_apply, val_main_cst_3_apply]
  rfl

/-- The divisor at (n, o): the larger of the count at n and 1. -/
theorem divisor (x1 : (⟨S2x800000, .i32⟩ : BufTy).Contents (Elt Ideal)) (n : Fin 50000) (o : Fin 64) :
    val_main_v35 (F := Ideal) x1 (ix2 n o) = max (cnt x1 n) one := by
  rw [val_main_v35_apply, val_main_v34_apply]
  have hi : idx_main_v34 (idx_main_v35 (ix2 n o)) = ix1 n := funext fun a => Fin.ext (by match a with | ⟨0, _⟩ => rfl)
  rw [hi, val_main_v33_apply, count, val_main_v32_apply, val_main_cst_5_apply]
  rfl

/-! ## The result -/

/-- The reference's result is the specification's output array. -/
theorem ref_eq (x0 : (⟨Cert.ReferenceIdeal.S50000x64, .f32⟩ : BufTy).Contents (Elt Ideal)) (x1 : (⟨Cert.ReferenceIdeal.S2x800000, .i32⟩ : BufTy).Contents (Elt Ideal))
    (x2 : (⟨Cert.ReferenceIdeal.S64x128, .f32⟩ : BufTy).Contents (Elt Ideal)) (x3 : (⟨Cert.ReferenceIdeal.S64, .f32⟩ : BufTy).Contents (Elt Ideal)) :
    Cert.ReferenceIdeal.Read.val_main_v36 (F := Ideal) x0 x1 x2 x3 = Cert.EdgeConv.out x0 x1 x2 x3 := by
  funext i
  obtain ⟨n, o, rfl⟩ : ∃ (n : Fin 50000) (o : Fin 64), i = ix2 n o := ⟨i 0, i 1, eq_ix2 i⟩
  rw [Cert.EdgeConv.out_ix2, val_main_v36_apply, total, divisor]
  rfl

end Cert.ReferenceIdeal.RefValue

end
-- ==== Proof.PreFacts.lean ====
/-
  What the precondition says about the inputs.

  The precondition is a conjunction of four "for all entries" tests: the absolute value of every node feature, of
  every weight and of every bias entry lies strictly below +∞, and every source word (row 0 of the edge words), read
  signed, lies in [-50000, 50000). Each test is an "and" over all entries of a one-bit mask that starts from 1, so the
  whole being 1 means every entry of every mask is 1. An extended real whose absolute value max v (−v) is below +∞ is
  neither +∞ nor −∞, hence a real number; a signed comparison bit that is 1 says the order relation between the signed
  values of the two words.
-/
import proofs.«431435_j60859686584363_3_alg».proof.Pre_finite_inputs
import proofs.«431435_j60859686584363_3_alg».proof.Proof.Gen.Pre_finite_inputs
import proofs.«431435_j60859686584363_3_alg».proof.Proof.Spec
import Idealize.ShloMosaic.Lib.ReduceAll
import Idealize.ShloMosaic.Lib.Affine
import Idealize.ShloMosaic.Lib.Pipeline.Value
import Idealize.ShloMosaic.Lib.ValueIdx
import Idealize.ShloMosaic.PureOps.Ideal.Laws

noncomputable section

namespace Cert.EdgeConv

open Idealize.ShloMosaic Idealize.ShloMosaic.ValueIdx

/-- An extended real whose absolute value lies strictly below +∞ is a real number: at −∞ and at +∞ the absolute
    value is +∞. -/
theorem real_of_abs_lt_top (v : EReal) (h : max v (-v) < ⊤) : ∃ r : ℝ, v = (r : EReal) := by
  induction v using EReal.rec with
  | bot => simp at h
  | coe r => exact ⟨r, rfl⟩
  | top => simp at h

/-- The single-precision word 0x7F800000 encodes +∞. -/
theorem ofBits_inf : Ideal.ofBits .f32 0x7F800000#32 = (⊤ : EReal) := by simp [Ideal.ofBits, Ideal.ieee]

/-- One entry of a finiteness mask: where the test "|x| < +∞" answers 1, the entry of x is a real number. -/
theorem real_of_finite_entry {s : Shape}
    (hb : Cert.Pre_finite_inputs.S_.BroadcastsInDim s (![] : Fin 0 → Fin s.rank)) (x : FVec Ideal s .f32) (i : s.Idx)
    (h : cmpf .olt (Host.absf x) (broadcastInDim s ![] hb (constant Cert.Pre_finite_inputs.S_ .f32 0x7F800000#32)) i = 1#1) :
    ∃ r : ℝ, x i = (r : EReal) := by
  change Ideal.cmp .olt (max (x i : EReal) (-(x i : EReal))) (Ideal.ofBits .f32 0x7F800000#32) = 1#1 at h
  rw [ofBits_inf] at h
  unfold Ideal.cmp at h
  by_cases hlt : max (x i : EReal) (-(x i : EReal)) < ⊤
  · exact real_of_abs_lt_top _ hlt
  · simp [hlt] at h

/-- Where the precondition holds, every node feature, weight and bias entry is a real number, and the source word of
    every edge, read signed, lies in [-50000, 50000). -/
theorem pre_facts [Cert.Pre_finite_inputs.Facts]
    (x : FVec Ideal Cert.Pre_finite_inputs.S50000x64 .f32) (ei : IVec Cert.Pre_finite_inputs.S2x800000 32)
    (W : FVec Ideal Cert.Pre_finite_inputs.S64x128 .f32) (b : FVec Ideal Cert.Pre_finite_inputs.S64 .f32)
    (h : Cert.Pre_finite_inputs.fn (F := Ideal) x ei W b = fun _ => 1#1) :
    (∀ i, ∃ r : ℝ, x i = (r : EReal)) ∧ (∀ i, ∃ r : ℝ, W i = (r : EReal)) ∧ (∀ i, ∃ r : ℝ, b i = (r : EReal))
      ∧ ∀ e : Fin 800000, (-50000 : ℤ) ≤ (ei (Idealize.ShloMosaic.ValueIdx.ix2 0 e)).toInt ∧ (ei (Idealize.ShloMosaic.ValueIdx.ix2 0 e)).toInt < 50000 := by
  have h0 := congrFun h ix0
  dsimp only [Cert.Pre_finite_inputs.fn, Cert.Pre_finite_inputs.fn_part1] at h0
  -- the result at its one index is the "and" of the four tests' bits
  change IntOp.andi (IntOp.andi (IntOp.andi _ _) _) _ = 1#1 at h0
  rw [IntOp.andi_eq_one, IntOp.andi_eq_one, IntOp.andi_eq_one] at h0
  obtain ⟨⟨⟨hx, hW⟩, hb⟩, he⟩ := h0
  haveI : Subsingleton Cert.Pre_finite_inputs.S_.Idx := ⟨fun a b => funext fun d => d.elim0⟩
  refine ⟨fun i => ?_, fun i => ?_, fun i => ?_, fun e => ?_⟩
  · exact real_of_finite_entry _ x i (Host.reduce_andi_all _ _ _ _ _ hx i)
  · exact real_of_finite_entry _ W i (Host.reduce_andi_all _ _ _ _ _ hW i)
  · exact real_of_finite_entry _ b i (Host.reduce_andi_all _ _ _ _ _ hb i)
  · -- the mask entry at (0, e): both comparisons of the source word of edge e answer 1
    have hm := Host.reduce_andi_all _ _ _ _ _ he (ix2 (0 : Fin 1) e)
    have hs : extractStridedSlice Cert.Pre_finite_inputs.S1x800000 ![0, 0] ei
        Cert.Pre_finite_inputs.Facts.slices_S2x800000_S1x800000_0_0 (ix2 (0 : Fin 1) e) = ei (ix2 0 e) :=
      extractStridedSlice_apply ![0, 0] ei _ (ix2 (0 : Fin 1) e) (ix2 (0 : Fin 2) e) (fun a => match a with
        | ⟨0, _⟩ => by show (0 : ℕ) = 0 + 0; rfl
        | ⟨1, _⟩ => by show e.val = 0 + e.val; omega)
    change IntOp.andi (IntOp.cmpi .sge (extractStridedSlice Cert.Pre_finite_inputs.S1x800000 ![0, 0] ei _ (ix2 (0 : Fin 1) e)) 4294917296#32)
      (IntOp.cmpi .slt (extractStridedSlice Cert.Pre_finite_inputs.S1x800000 ![0, 0] ei _ (ix2 (0 : Fin 1) e)) 50000#32) = 1#1 at hm
    rw [hs, IntOp.andi_eq_one, IntOp.cmpi_sge, IntOp.cmpi_slt] at hm
    have hlo : (4294917296#32 : BitVec 32).toInt = -50000 := by decide
    have hhi : (50000#32 : BitVec 32).toInt = 50000 := by decide
    rw [hlo, hhi] at hm
    exact hm

end Cert.EdgeConv

end
-- ==== Proof.lean ====
/-
  An edge-convolution layer with mean aggregation on a graph of 50000 nodes, 64 features and 800000 edges: per edge the
  message W · [x_dst ; x_src − x_dst] + b, summed into the destination node and divided by max (count, 1).

  The reference adds the messages edge by edge. The kernel program uses that the sum over the edges into a node n is
  linear: it counts the edges into n and sums their source rows on the host, and its one grid kernel forms, ten blocks of
  5000 nodes at a time, (count · x) (W₁ − W₂)ᵀ + (Σ x_src) W₂ᵀ + count · b for W = [W₁ | W₂]; the host divides. Read
  over the extended reals (a change of float format is the identity there) the two programs compute one function of
  the inputs wherever distributivity holds, that is on finite x, W and b, and wherever the kernel's row lookup agrees
  with the reference's: the reference reads x[src] with a negative word counting from the end and out-of-range words
  clamped, the kernel's lookup fills out-of-range rows with a fill value instead, so the source words are required to
  index the 50000 rows, −50000 ≤ src < 50000 (outside that range the reference indexes out of range). The destination
  words need nothing: an edge whose destination word is no row is dropped by both aggregations, and for the others
  normalisation and clamp do nothing.

  The claims: the three programs run and keep their arguments (the two kernel programs by their generated frames, the
  reference by its generated run); the idealization rewrote nothing; and the two idealized programs end with equal
  results — the kernel's from its frame run read block by block and through the host operations around the region
  (Proof/KerHost.lean, Proof/KerValue.lean, Proof/KerRead.lean, Proof/KerOut.lean), the reference's from its run read
  operation by operation (Proof/RefValue.lean), joined by the identity of Proof/Algebra.lean under the facts the
  precondition gives (Proof/PreFacts.lean).
-/
import proofs.«431435_j60859686584363_3_alg».proof.Defs
import proofs.«431435_j60859686584363_3_alg».proof.Proof.Gen.Kernel
import proofs.«431435_j60859686584363_3_alg».proof.Proof.Gen.Kernel.Skeleton
import proofs.«431435_j60859686584363_3_alg».proof.Proof.Gen.Kernel.Launch
import proofs.«431435_j60859686584363_3_alg».proof.Proof.Gen.Kernel.Points
import proofs.«431435_j60859686584363_3_alg».proof.Proof.Gen.Kernel.Frame
import proofs.«431435_j60859686584363_3_alg».proof.Proof.Gen.KernelIdeal
import proofs.«431435_j60859686584363_3_alg».proof.Proof.Gen.KernelIdeal.Skeleton
import proofs.«431435_j60859686584363_3_alg».proof.Proof.Gen.KernelIdeal.Launch
import proofs.«431435_j60859686584363_3_alg».proof.Proof.Gen.KernelIdeal.Points
import proofs.«431435_j60859686584363_3_alg».proof.Proof.Gen.KernelIdeal.Frame
import proofs.«431435_j60859686584363_3_alg».proof.Proof.Gen.ReferenceIdeal
import proofs.«431435_j60859686584363_3_alg».proof.Proof.Gen.Pre_finite_inputs
import proofs.«431435_j60859686584363_3_alg».proof.Proof.Gen.ReferenceIdeal.Run
import proofs.«431435_j60859686584363_3_alg».proof.Proof.Gen.ReferenceIdeal.Read
import proofs.«431435_j60859686584363_3_alg».proof.Proof.KerOut
import proofs.«431435_j60859686584363_3_alg».proof.Proof.RefValue
import proofs.«431435_j60859686584363_3_alg».proof.Proof.PreFacts
import Idealize.ShloMosaic.Adequacy
import Idealize.ShloMosaic.Init

noncomputable section

namespace Cert.Proof

open Idealize.ShloMosaic Idealize.SL.Sem

/-- The word-level kernel program runs and keeps its arguments: its generated frame. -/
theorem frame_k : Cert.frame_Kernel := fun m ρ _ => Cert.Kernel.Gen.frame m ρ

/-- The idealized kernel program runs and keeps its arguments: its generated frame. -/
theorem frame_ki : Cert.frame_KernelIdeal := fun m ρ _ => Cert.KernelIdeal.Gen.frame m ρ

/-- The idealized reference runs and keeps its arguments: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the layer's output array of the kernel program's arguments. -/
theorem algebraic : Cert.algebraic_KernelIdeal_ReferenceIdeal := by
  intro m ρ m' ρ' hpre hagree
  refine ⟨fun c => Cert.EdgeConv.out
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3)), ?_, ?_⟩
  · refine (θ_run Cert.KernelIdeal.defs _ _).mono (fun r h c => ⟨(h c).1.trans ?_, (h c).2⟩)
      (Cert.KernelIdeal.Hand.run m ρ)
    obtain ⟨hx, hW, hb, hsrc⟩ := Cert.EdgeConv.pre_facts _ _ _ _ (hpre c)
    unfold Cert.KernelIdeal.Hand.rawV
    rw [Cert.KernelIdeal.Hand.arrXc_eq, Cert.KernelIdeal.Hand.arrS_eq, Cert.KernelIdeal.Hand.arrBias_eq,
      Cert.KernelIdeal.Hand.arrA_eq, Cert.KernelIdeal.Hand.arrB_eq]
    exact Cert.KernelIdeal.Hand.quotient_eq _ _ _ _ hx hW hb hsrc
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v36_eq, Cert.ReferenceIdeal.RefValue.ref_eq,
      (hagree c).1, (hagree c).2.1, (hagree c).2.2.1, (hagree c).2.2.2]

theorem claim : Cert.Claim := ⟨Cert.Kernel.Gen.facts, Cert.KernelIdeal.Gen.facts, Cert.ReferenceIdeal.Gen.facts,
  Cert.Pre_finite_inputs.Gen.facts, frame_k, frame_ki, frame_ri, preserves, algebraic⟩

end Cert.Proof

end
